-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S32x640 : Shape := ⟨2, ![32, 640]⟩
abbrev S32000x512 : Shape := ⟨2, ![32000, 512]⟩
abbrev S2560x512 : Shape := ⟨2, ![2560, 512]⟩
abbrev S512 : Shape := ⟨1, ![512]⟩
abbrev S_ : Shape := ⟨0, ![]⟩

class Facts : Prop where
  bcast_S_S32000x512 : S_.BroadcastsInDim S32000x512 (![] : Fin 0 → Fin S32000x512.rank)
  reducesTo_S32000x512_S_d0_1 : S32000x512.ReducesTo [0, 1] S_
  h_S_ : 0 < S_.numel
  bcast_S_S2560x512 : S_.BroadcastsInDim S2560x512 (![] : Fin 0 → Fin S2560x512.rank)
  reducesTo_S2560x512_S_d0_1 : S2560x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : IVec S32x1024 32) (main_arg1 : IVec S32x640 32) (main_arg2 : FVec F S32000x512 .f32) (main_arg3 : FVec F S32000x512 .f32) (main_arg4 : FVec F S2560x512 .f32) (main_arg5 : FVec F S512 .f32) : IVec S_ 1 :=
  let main_v0 : FVec F S32000x512 .f32 := Host.absf main_arg2
  let main_cst : FVec F S_ .f32 := constant S_ .f32 0x7F800000#32
  let main_v1 : FVec F S32000x512 .f32 := broadcastInDim S32000x512 ![] bcast_S_S32000x512 main_cst
  let main_v2 : IVec S32000x512 1 := cmpf .olt main_v0 main_v1
  let main_c : IVec S_ 1 := constantI S_ 1 1#1
  let main_v3 : IVec S_ 1 := (fun x v => Host.reduce IntOp.andi x v reducesTo_S32000x512_S_d0_1 h_S_) main_v2 main_c
  let main_v4 : FVec F S32000x512 .f32 := Host.absf main_arg3
  let main_cst_0 : FVec F S_ .f32 := constant S_ .f32 0x7F800000#32
  let main_v5 : FVec F S32000x512 .f32 := broadcastInDim S32000x512 ![] bcast_S_S32000x512 main_cst_0
  let main_v6 : IVec S32000x512 1 := cmpf .olt main_v4 main_v5
  let main_c_1 : IVec S_ 1 := constantI S_ 1 1#1
  let main_v7 : IVec S_ 1 := (fun x v => Host.reduce IntOp.andi x v reducesTo_S32000x512_S_d0_1 h_S_) main_v6 main_c_1
  let main_v8 : IVec S_ 1 := andi main_v3 main_v7
  let main_v9 : FVec F S2560x512 .f32 := Host.absf main_arg4
  let main_cst_2 : FVec F S_ .f32 := constant S_ .f32 0x7F800000#32
  let main_v10 : FVec F S2560x512 .f32 := broadcastInDim S2560x512 ![] bcast_S_S2560x512 main_cst_2
  let main_v11 : IVec S2560x512 1 := cmpf .olt main_v9 main_v10
  let main_c_3 : IVec S_ 1 := constantI S_ 1 1#1
  let main_v12 : IVec S_ 1 := (fun x v => Host.reduce IntOp.andi x v reducesTo_S2560x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S32x1024 : Shape := ⟨2, ![32, 1024]⟩
abbrev S32x640 : Shape := ⟨2, ![32, 640]⟩
abbrev S32000x512 : Shape := ⟨2, ![32000, 512]⟩
abbrev S2560x512 : Shape := ⟨2, ![2560, 512]⟩
abbrev S512 : Shape := ⟨1, ![512]⟩
abbrev S_ : Shape := ⟨0, ![]⟩
abbrev S32x1024x1 : Shape := ⟨3, ![32, 1024, 1]⟩
abbrev S32x1024x512 : Shape := ⟨3, ![32, 1024, 512]⟩
abbrev S32x640x1 : Shape := ⟨3, ![32, 640, 1]⟩
abbrev S32x640x512 : Shape := ⟨3, ![32, 640, 512]⟩
abbrev S32x128x2560 : Shape := ⟨3, ![32, 128, 2560]⟩
abbrev S32x1x1024 : Shape := ⟨3, ![32, 1, 1024]⟩
abbrev S1x512 : Shape := ⟨2, ![1, 512]⟩
abbrev S32x128x512 : Shape := ⟨3, ![32, 128, 512]⟩
abbrev S32x128x1024 : Shape := ⟨3, ![32, 128, 1024]⟩
abbrev S4x128x2560 : Shape := ⟨3, ![4, 128, 2560]⟩
abbrev S4x1024x512 : Shape := ⟨3, ![4, 1024, 512]⟩
abbrev S4x1x1024 : Shape := ⟨3, ![4, 1, 1024]⟩
abbrev S4x128x512 : Shape := ⟨3, ![4, 128, 512]⟩
abbrev S4x128x1024 : Shape := ⟨3, ![4, 128, 1024]⟩
abbrev S512x2560 : Shape := ⟨2, ![512, 2560]⟩
abbrev S512x512 : Shape := ⟨2, ![512, 512]⟩
abbrev S4x128 : Shape := ⟨2, ![4, 128]⟩
abbrev S4x128x1 : Shape := ⟨3, ![4, 128, 1]⟩

abbrev nBuf : Space → Nat
  | .hbm => 41
  | .vmem => 12
  | .smem => 0
  | _ => 0

abbrev bufTy : (tb : Table) → Fin (tcTables nBuf tb) → BufTy
  | .hbm, ⟨0, _⟩ => ⟨S32x1024, .i32⟩
  | .hbm, ⟨1, _⟩ => ⟨S32x640, .i32⟩
  | .hbm, ⟨2, _⟩ => ⟨S32000x512, .f32⟩
  | .hbm, ⟨3, _⟩ => ⟨S32000x512, .f32⟩
  | .hbm, ⟨4, _⟩ => ⟨S2560x512, .f32⟩
  | .hbm, ⟨5, _⟩ => ⟨S512, .f32⟩
  | .hbm, ⟨6, _⟩ => ⟨S32000x512, .bf16⟩
  | .hbm, ⟨7, _⟩ => ⟨S32000x512, .bf16⟩
  | .hbm, ⟨8, _⟩ => ⟨S_, .i32⟩
  | .hbm, ⟨9, _⟩ => ⟨S32x1024, .i32⟩
  | .hbm, ⟨10, _⟩ => ⟨S32x1024, .i1⟩
  | .hbm, ⟨11, _⟩ => ⟨S_, .i32⟩
  | .hbm, ⟨12, _⟩ => ⟨S32x1024, .i32⟩
  | .hbm, ⟨13, _⟩ => ⟨S32x1024, .i32⟩
  | .hbm, ⟨14, _⟩ => ⟨S32x1024, .i32⟩
  | .hbm, ⟨15, _⟩ => ⟨S32x1024x1, .i32⟩
  | .hbm, ⟨16, _⟩ => ⟨S32x1024x512, .bf16⟩
  | .hbm, ⟨17, _⟩ => ⟨S_, .i32⟩
  | .hbm, ⟨18, _⟩ => ⟨S32x640, .i32⟩
  | .hbm, ⟨19, _⟩ => ⟨S32x640, .i1⟩
  | .hbm, ⟨20, _⟩ => ⟨S_, .i32⟩
  | .hbm, ⟨21, _⟩ => ⟨S32x640, .i32⟩
  | .hbm, ⟨22, _⟩ => ⟨S32x640, .i32⟩
  | .hbm, ⟨23, _⟩ => ⟨S32x640, .i32⟩
  | .hbm, ⟨24, _⟩ => ⟨S32x640x1, .i32⟩
  | .hbm, ⟨25, _⟩ => ⟨S32x640x512, .bf16⟩
  | .hbm, ⟨26, _⟩ => ⟨S32x128x2560, .bf16⟩
  | .hbm, ⟨27, _⟩ => ⟨S_, .i32⟩
  | .hbm, ⟨28, _⟩ => ⟨S32x1024, .i32⟩
  | .hbm, ⟨29, _⟩ => ⟨S32x1024, .i1⟩
  | .hbm, ⟨30, _⟩ => ⟨S_, .f32⟩
  | .hbm, ⟨31, _⟩ => ⟨S_, .f32⟩
  | .hbm, ⟨32, _⟩ => ⟨S32x1024, .f32⟩
  | .hbm, ⟨33, _⟩ => ⟨S32x1024, .f32⟩
  | .hbm, ⟨34, _⟩ => ⟨S32x1024, .f32⟩
  | .hbm, ⟨35, _⟩ => ⟨S32x1024, .f32⟩
  | .hbm, ⟨36, _⟩ => ⟨S32x1x1024, .f32⟩
  | .hbm, ⟨37, _⟩ => ⟨S2560x512, .bf16⟩
  | .hbm, ⟨38, _⟩ => ⟨S1x512, .f32⟩
  | .hbm, ⟨39, _⟩ => ⟨S32x128x512, .f32⟩
  | .hbm, ⟨40, _⟩ => ⟨S32x128x1024, .f32⟩
  | .local _ .vmem, ⟨0, _⟩ => ⟨S4x128x2560, .bf16⟩
  | .local _ .vmem, ⟨1, _⟩ => ⟨S4x128x2560, .bf16⟩
  | .local _ .vmem, ⟨2, _⟩ => ⟨S4x1024x512, .bf16⟩
  | .local _ .vmem, ⟨3, _⟩ => ⟨S4x1024x512, .bf16⟩
  | .local _ .vmem, ⟨4, _⟩ => ⟨S2560x512, .bf16⟩
  | .local _ .vmem, ⟨5, _⟩ => ⟨S1x512, .f32⟩
  | .local _ .vmem, ⟨6, _⟩ => ⟨S4x1x1024, .f32⟩
  | .local _ .vmem, ⟨7, _⟩ => ⟨S4x1x1024, .f32⟩
  | .local _ .vmem, ⟨8, _⟩ => ⟨S4x128x512, .f32⟩
  | .local _ .vmem, ⟨9, _⟩ => ⟨S4x128x512, .f32⟩
  | .local _ .vmem, ⟨10, _⟩ => ⟨S4x128x1024, .f32⟩
  | .local _ .vmem, ⟨11, _⟩ => ⟨S4x128x1024, .f32⟩
  | _, _ => ⟨S32x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24_0 : Ref sig .tc := ⟨.hbm, 39, rfl⟩
abbrev main_v24_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x128x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2560x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S_S32x640 : S_.BroadcastsInDim S32x640 (![] : Fin 0 → Fin S32x640.rank)
  bcast_S32x640_S32x640x1_0_1 : S32x640.BroadcastsInDim S32x640x1 (![0, 1] : Fin 2 → Fin S32x640x1.rank)
  shapeCasts_S32x640x512_S32x128x2560 : S32x640x512.ShapeCasts S32x128x2560
  shapeCasts_S32x1024_S32x1x1024 : S32x1024.ShapeCasts S32x1x1024
  shapeCasts_S512_S1x512 : S512.ShapeCasts S1x512
  inb_S4x128x2560_S4x128x2560_0_0_0 : ∀ a, (![0, 0, 0] : Fin 3 → Nat) a + S4x128x2560.size a ≤ S4x128x2560.size a
  h_S4x128x2560 : 0 < S4x128x2560.numel
  shapeCasts_S4x128x2560_S4x128x2560 : S4x128x2560.ShapeCasts S4x128x2560
  inb_S4x1024x512_S4x1024x512_0_0_0 : ∀ a, (![0, 0, 0] : Fin 3 → Nat) a + S4x1024x512.size a ≤ S4x1024x512.size a
  h_S4x1024x512 : 0 < S4x1024x512.numel
  shapeCasts_S4x1024x512_S4x1024x512 : S4x1024x512.ShapeCasts S4x1024x512
  inb_S2560x512_S2560x512_0_0 : ∀ a, (![0, 0] : Fin 2 → Nat) a + S2560x512.size a ≤ S2560x512.size a
  h_S2560x512 : 0 < S2560x512.numel
  shapeCasts_S2560x512_S2560x512 : S2560x512.ShapeCasts S2560x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S4x1x1024_S4x1x1024_0_0_0 : ∀ a, (![0, 0, 0] : Fin 3 → Nat) a + S4x1x1024.size a ≤ S4x1x1024.size a
  h_S4x1x1024 : 0 < S4x1x1024.numel
  shapeCasts_S4x1x1024_S4x1x1024 : S4x1x1024.ShapeCasts S4x1x1024
  shapeCasts_S4x128x2560_S512x2560 : S4x128x2560.ShapeCasts S512x2560
  broadcasts_S1x512_S512x512 : S1x512.Broadcasts S512x512
  shapeCasts_S512x512_S4x128x512 : S512x512.ShapeCasts S4x128x512
  broadcasts_S4x1x1024_S4x128x1024 : S4x1x1024.Broadcasts S4x128x1024
  reduces_S4x128x1024_S4x128 : S4x128x1024.Reduces [2] S4x128
  shapeCasts_S4x128_S4x128x1 : S4x128.ShapeCasts S4x128x1
  broadcasts_S4x128x1_S4x128x1024 : S4x128x1.Broadcasts S4x128x1024
  inb_S4x128x1024_S4x128x1024_0_0_0 : ∀ a, (![0, 0, 0] : Fin 3 → Nat) a + S4x128x1024.size a ≤ S4x128x1024.size a
  h_S4x128x1024 : 0 < S4x128x1024.numel
  inb_S4x128x512_S4x128x512_0_0_0 : ∀ a, (![0, 0, 0] : Fin 3 → Nat) a + S4x128x512.size a ≤ S4x128x512.size a
  h_S4x128x512 : 0 < S4x128x512.numel
  gather_S32000x512_S32x1024x1_S32x1024x512_2_0_n_n_0_2_1512_wf : GatherDims.WF S32000x512 S32x1024x1 S32x1024x512 [2] [0] [] [0] [] 2 ![1, 512]
  gather_S32000x512_S32x640x1_S32x640x512_2_0_n_n_0_2_1512_wf : GatherDims.WF S32000x512 S32x640x1 S32x640x512 [2] [0] [] [0] [] 2 ![1, 512]
  dot_S512x2560_S2560x512_S512x512_1_0_0_1_n_n_wf : DotDims.WF S512x2560 S2560x512 S512x512 [1] [0] [0] [1] [] []
  dot_S4x128x512_S4x1024x512_S4x128x1024_2_2_1_1_0_0_wf : DotDims.WF S4x128x512 S4x1024x512 S4x128x1024 [2] [2] [1] [1] [0] [0]
  dot_S4x128x1024_S4x1024x512_S4x128x512_2_1_1_2_0_0_wf : DotDims.WF S4x128x1024 S4x1024x512 S4x128x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x2560.size a ≤ S32x128x2560.size a
  hwx0_0 : ∀ i : grid0.Coords, EltTy.bits .bf16 = 32 ∨ (Rect.block (s := S32x128x2560) S4x128x2560.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1024x512.size a ≤ S32x1024x512.size a
  hwx0_1 : ∀ i : grid0.Coords, EltTy.bits .bf16 = 32 ∨ (Rect.block (s := S32x1024x512) S4x1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2560x512.size a ≤ S2560x512.size a
  hwx0_2 : ∀ i : grid0.Coords, EltTy.bits .bf16 = 32 ∨ (Rect.block (s := S2560x512) S2560x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1x1024.size a ≤ S32x1x1024.size a
  hwx0_4 : ∀ i : grid0.Coords, EltTy.bits .f32 = 32 ∨ (Rect.block (s := S32x1x1024) S4x1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x128x512.size a ≤ S32x128x512.size a
  hwx0_5 : ∀ i : grid0.Coords, EltTy.bits .f32 = 32 ∨ (Rect.block (s := S32x128x512) S4x128x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x128x1024.size a ≤ S32x128x1024.size a
  hwx0_6 : ∀ i : grid0.Coords, EltTy.bits .f32 = 32 ∨ (Rect.block (s := S32x128x1024) S4x128x1024.size (cc0_transform_6 i) (hinb0_6 i)).WholeWords (EltTy.packing .f32)

variable [Facts₀]

def gather_S32000x512_S32x1024x1_S32x1024x512_2_0_n_n_0_2_1512 : GatherDims S32000x512 S32x1024x1 S32x1024x512 where
  offsetDims := [2]
  collapsedSliceDims := [0]
  operandBatchingDims := []
  startIndicesBatchingDims := []
  startIndexMap := [0]
  indexVectorDim := 2
  sliceSizes := ![1, 512]
  wf := gather_S32000x512_S32x1024x1_S32x1024x512_2_0_n_n_0_2_1512_wf
def gather_S32000x512_S32x640x1_S32x640x512_2_0_n_n_0_2_1512 : GatherDims S32000x512 S32x640x1 S32x640x512 where
  offsetDims := [2]
  collapsedSliceDims := [0]
  operandBatchingDims := []
  startIndicesBatchingDims := []
  startIndexMap := [0]
  indexVectorDim := 2
  sliceSizes := ![1, 512]
  wf := gather_S32000x512_S32x640x1_S32x640x512_2_0_n_n_0_2_1512_wf
def dot_S512x2560_S2560x512_S512x512_1_0_0_1_n_n : DotDims S512x2560 S2560x512 S512x512 where
  lhsContracting := [1]
  rhsContracting := [0]
  lhsNonContracting := [0]
  rhsNonContracting := [1]
  lhsBatch := []
  rhsBatch := []
  wf := dot_S512x2560_S2560x512_S512x512_1_0_0_1_n_n_wf
def dot_S4x128x512_S4x1024x512_S4x128x1024_2_2_1_1_0_0 : DotDims S4x128x512 S4x1024x512 S4x128x1024 where
  lhsContracting := [2]
  rhsContracting := [2]
  lhsNonContracting := [1]
  rhsNonContracting := [1]
  lhsBatch := [0]
  rhsBatch := [0]
  wf := dot_S4x128x512_S4x1024x512_S4x128x1024_2_2_1_1_0_0_wf
def dot_S4x128x1024_S4x1024x512_S4x128x512_2_1_1_2_0_0 : DotDims S4x128x1024 S4x1024x512 S4x128x512 where
  lhsContracting := [2]
  rhsContracting := [1]
  lhsNonContracting := [1]
  rhsNonContracting := [2]
  lhsBatch := [0]
  rhsBatch := [0]
  wf := dot_S4x128x1024_S4x1024x512_S4x128x512_2_1_1_2_0_0_wf

abbrev win0_0 : Pipeline.Window sig grid0 :=
  Pipeline.Window.ofSpec (Memref.whole main_v16) S4x128x2560.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S2560x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S4x1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v24_0) S4x128x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v24_1) S4x128x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x1024 : Shape := ⟨2, ![32, 1024]⟩
abbrev S32x640 : Shape := ⟨2, ![32, 640]⟩
abbrev S32000x512 : Shape := ⟨2, ![32000, 512]⟩
abbrev S2560x512 : Shape := ⟨2, ![2560, 512]⟩
abbrev S512 : Shape := ⟨1, ![512]⟩
abbrev S_ : Shape := ⟨0, ![]⟩
abbrev S32x1024x1 : Shape := ⟨3, ![32, 1024, 1]⟩
abbrev S32x1024x512 : Shape := ⟨3, ![32, 1024, 512]⟩
abbrev S32x640x1 : Shape := ⟨3, ![32, 640, 1]⟩
abbrev S32x640x512 : Shape := ⟨3, ![32, 640, 512]⟩
abbrev S32x128x2560 : Shape := ⟨3, ![32, 128, 2560]⟩
abbrev S32x128x512 : Shape := ⟨3, ![32, 128, 512]⟩
abbrev S1x1x512 : Shape := ⟨3, ![1, 1, 512]⟩
abbrev S32x1024x128 : Shape := ⟨3, ![32, 1024, 128]⟩
abbrev S32x128x1024 : Shape := ⟨3, ![32, 128, 1024]⟩
abbrev S32x128 : Shape := ⟨2, ![32, 128]⟩
abbrev S32x128x1 : Shape := ⟨3, ![32, 128, 1]⟩

abbrev nBuf : Space → Nat
  | .hbm => 56
  | .vmem => 0
  | .smem => 0
  | _ => 0

abbrev bufTy : (tb : Table) → Fin (tcTables nBuf tb) → BufTy
  | .hbm, ⟨0, _⟩ => ⟨S32x1024, .i32⟩
  | .hbm, ⟨1, _⟩ => ⟨S32x640, .i32⟩
  | .hbm, ⟨2, _⟩ => ⟨S32000x512, .f32⟩
  | .hbm, ⟨3, _⟩ => ⟨S32000x512, .f32⟩
  | .hbm, ⟨4, _⟩ => ⟨S2560x512, .f32⟩
  | .hbm, ⟨5, _⟩ => ⟨S512, .f32⟩
  | .hbm, ⟨6, _⟩ => ⟨S_, .i32⟩
  | .hbm, ⟨7, _⟩ => ⟨S32x1024, .i32⟩
  | .hbm, ⟨8, _⟩ => ⟨S32x1024, .i1⟩
  | .hbm, ⟨9, _⟩ => ⟨S32x1024, .f32⟩
  | .hbm, ⟨10, _⟩ => ⟨S_, .i32⟩
  | .hbm, ⟨11, _⟩ => ⟨S32x1024, .i32⟩
  | .hbm, ⟨12, _⟩ => ⟨S32x1024, .i1⟩
  | .hbm, ⟨13, _⟩ => ⟨S_, .i32⟩
  | .hbm, ⟨14, _⟩ => ⟨S32x1024, .i32⟩
  | .hbm, ⟨15, _⟩ => ⟨S32x1024, .i32⟩
  | .hbm, ⟨16, _⟩ => ⟨S32x1024, .i32⟩
  | .hbm, ⟨17, _⟩ => ⟨S32x1024x1, .i32⟩
  | .hbm, ⟨18, _⟩ => ⟨S32x1024x512, .f32⟩
  | .hbm, ⟨19, _⟩ => ⟨S_, .i32⟩
  | .hbm, ⟨20, _⟩ => ⟨S32x640, .i32⟩
  | .hbm, ⟨21, _⟩ => ⟨S32x640, .i1⟩
  | .hbm, ⟨22, _⟩ => ⟨S_, .i32⟩
  | .hbm, ⟨23, _⟩ => ⟨S32x640, .i32⟩
  | .hbm, ⟨24, _⟩ => ⟨S32x640, .i32⟩
  | .hbm, ⟨25, _⟩ => ⟨S32x640, .i32⟩
  | .hbm, ⟨26, _⟩ => ⟨S32x640x1, .i32⟩
  | .hbm, ⟨27, _⟩ => ⟨S32x640x512, .f32⟩
  | .hbm, ⟨28, _⟩ => ⟨S32x128x2560, .f32⟩
  | .hbm, ⟨29, _⟩ => ⟨S32x128x512, .f32⟩
  | .hbm, ⟨30, _⟩ => ⟨S1x1x512, .f32⟩
  | .hbm, ⟨31, _⟩ => ⟨S32x128x512, .f32⟩
  | .hbm, ⟨32, _⟩ => ⟨S32x128x512, .f32⟩
  | .hbm, ⟨33, _⟩ => ⟨S32x1024x128, .f32⟩
  | .hbm, ⟨34, _⟩ => ⟨S32x1024x1, .f32⟩
  | .hbm, ⟨35, _⟩ => ⟨S_, .f32⟩
  | .hbm, ⟨36, _⟩ => ⟨S32x1024x1, .f32⟩
  | .hbm, ⟨37, _⟩ => ⟨S32x1024x1, .f32⟩
  | .hbm, ⟨38, _⟩ => ⟨S32x1024x128, .f32⟩
  | .hbm, ⟨39, _⟩ => ⟨S32x1024x128, .f32⟩
  | .hbm, ⟨40, _⟩ => ⟨S32x128x1024, .f32⟩
  | .hbm, ⟨41, _⟩ => ⟨S_, .f32⟩
  | .hbm, ⟨42, _⟩ => ⟨S32x128, .f32⟩
  | .hbm, ⟨43, _⟩ => ⟨S_, .f32⟩
  | .hbm, ⟨44, _⟩ => ⟨S32x128, .f32⟩
  | .hbm, ⟨45, _⟩ => ⟨S32x128, .f32⟩
  | .hbm, ⟨46, _⟩ => ⟨S32x128x1, .f32⟩
  | .hbm, ⟨47, _⟩ => ⟨S32x128x1024, .f32⟩
  | .hbm, ⟨48, _⟩ => ⟨S32x128x1024, .f32⟩
  | .hbm, ⟨49, _⟩ => ⟨S32x128x1024, .f32⟩
  | .hbm, ⟨50, _⟩ => ⟨S_, .f32⟩
  | .hbm, ⟨51, _⟩ => ⟨S32x128, .f32⟩
  | .hbm, ⟨52, _⟩ => ⟨S32x128x1, .f32⟩
  | .hbm, ⟨53, _⟩ => ⟨S32x128x1024, .f32⟩
  | .hbm, ⟨54, _⟩ => ⟨S32x128x1024, .f32⟩
  | .hbm, ⟨55, _⟩ => ⟨S32x128x512, .f32⟩
  | _, _ => ⟨S32x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]

class Facts₀ : Prop where
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S_S32x640 : S_.BroadcastsInDim S32x640 (![] : Fin 0 → Fin S32x640.rank)
  bcast_S32x640_S32x640x1_0_1 : S32x640.BroadcastsInDim S32x640x1 (![0, 1] : Fin 2 → Fin S32x640x1.rank)
  shapeCasts_S32x640x512_S32x128x2560 : S32x640x512.ShapeCasts S32x128x2560
  bcast_S512_S1x1x512_2 : S512.BroadcastsInDim S1x1x512 (![2] : Fin 1 → Fin S1x1x512.rank)
  bcast_S1x1x512_S32x128x512_0_1_2 : S1x1x512.BroadcastsInDim S32x128x512 (![0, 1, 2] : Fin 3 → Fin S32x128x512.rank)
  bcast_S_S32x1024x1 : S_.BroadcastsInDim S32x1024x1 (![] : Fin 0 → Fin S32x1024x1.rank)
  bcast_S32x1024x1_S32x1024x128_0_1_2 : S32x1024x1.BroadcastsInDim S32x1024x128 (![0, 1, 2] : Fin 3 → Fin S32x1024x128.rank)
  transposes_S32x1024x128_S32x128x1024_0_2_1 : S32x1024x128.Transposes [0, 2, 1] S32x128x1024
  reducesTo_S32x128x1024_S32x128_d2 : S32x128x1024.ReducesTo [2] S32x128
  h_S_ : 0 < S_.numel
  bcast_S_S32x128 : S_.BroadcastsInDim S32x128 (![] : Fin 0 → Fin S32x128.rank)
  bcast_S32x128_S32x128x1_0_1 : S32x128.BroadcastsInDim S32x128x1 (![0, 1] : Fin 2 → Fin S32x128x1.rank)
  bcast_S32x128x1_S32x128x1024_0_1_2 : S32x128x1.BroadcastsInDim S32x128x1024 (![0, 1, 2] : Fin 3 → Fin S32x128x1024.rank)
  gather_S32000x512_S32x1024x1_S32x1024x512_2_0_n_n_0_2_1512_wf : GatherDims.WF S32000x512 S32x1024x1 S32x1024x512 [2] [0] [] [0] [] 2 ![1, 512]
  gather_S32000x512_S32x640x1_S32x640x512_2_0_n_n_0_2_1512_wf : GatherDims.WF S32000x512 S32x640x1 S32x640x512 [2] [0] [] [0] [] 2 ![1, 512]
  dot_S32x128x2560_S2560x512_S32x128x512_2_0_01_1_n_n_wf : DotDims.WF S32x128x2560 S2560x512 S32x128x512 [2] [0] [0, 1] [1] [] []
  dot_S32x1024x512_S32x128x512_S32x1024x128_2_2_1_1_0_0_wf : DotDims.WF S32x1024x512 S32x128x512 S32x1024x128 [2] [2] [1] [1] [0] [0]
  dot_S32x128x1024_S32x1024x512_S32x128x512_2_1_1_2_0_0_wf : DotDims.WF S32x128x1024 S32x1024x512 S32x128x512 [2] [1] [1] [2] [0] [0]

variable [Facts₀]

def gather_S32000x512_S32x1024x1_S32x1024x512_2_0_n_n_0_2_1512 : GatherDims S32000x512 S32x1024x1 S32x1024x512 where
  offsetDims := [2]
  collapsedSliceDims := [0]
  operandBatchingDims := []
  startIndicesBatchingDims := []
  startIndexMap := [0]
  indexVectorDim := 2
  sliceSizes := ![1, 512]
  wf := gather_S32000x512_S32x1024x1_S32x1024x512_2_0_n_n_0_2_1512_wf
def gather_S32000x512_S32x640x1_S32x640x512_2_0_n_n_0_2_1512 : GatherDims S32000x512 S32x640x1 S32x640x512 where
  offsetDims := [2]
  collapsedSliceDims := [0]
  operandBatchingDims := []
  startIndicesBatchingDims := []
  startIndexMap := [0]
  indexVectorDim := 2
  sliceSizes := ![1, 512]
  wf := gather_S32000x512_S32x640x1_S32x640x512_2_0_n_n_0_2_1512_wf
def dot_S32x128x2560_S2560x512_S32x128x512_2_0_01_1_n_n : DotDims S32x128x2560 S2560x512 S32x128x512 where
  lhsContracting := [2]
  rhsContracting := [0]
  lhsNonContracting := [0, 1]
  rhsNonContracting := [1]
  lhsBatch := []
  rhsBatch := []
  wf := dot_S32x128x2560_S2560x512_S32x128x512_2_0_01_1_n_n_wf
def dot_S32x1024x512_S32x128x512_S32x1024x128_2_2_1_1_0_0 : DotDims S32x1024x512 S32x128x512 S32x1024x128 where
  lhsContracting := [2]
  rhsContracting := [2]
  lhsNonContracting := [1]
  rhsNonContracting := [1]
  lhsBatch := [0]
  rhsBatch := [0]
  wf := dot_S32x1024x512_S32x128x512_S32x1024x128_2_2_1_1_0_0_wf
def dot_S32x128x1024_S32x1024x512_S32x128x512_2_1_1_2_0_0 : DotDims S32x128x1024 S32x1024x512 S32x128x512 where
  lhsContracting := [2]
  rhsContracting := [1]
  lhsNonContracting := [1]
  rhsNonContracting := [2]
  lhsBatch := [0]
  rhsBatch := [0]
  wf := dot_S32x128x1024_S32x1024x512_S32x128x512_2_1_1_2_0_0_wf

class Facts : Prop extends Facts₀ where

variable [Facts]
-- ==== Proof.Spec.lean ====
/-
  One batch row of the attention read-out, on the extended reals.

  For a context row `y` (2560 entries), the projection weights `w` (2560 × 512) and bias `b` (512), the source
  embeddings `xe` of the batch row (1024 × 512) and its additive mask row `mb` (1024 entries):
    proj  d = (∑ k, y k · w k d) + b d
    score x = (∑ d, proj d · xe x d) + mb x
    soft  x = exp (score x − max_x' score x') / ∑ x', exp (score x' − max_x'' score x'')
    outp  d = ∑ x, soft x · xe x d
  The maximum is the fold of `max` over the 1024 positions from a starting value `ninf` (both programs start it at
  the pattern of −∞; nothing here depends on what it denotes). Both programs compute exactly these terms; the only
  rearrangements between them are the order of the two factors in the score's products and a `max` with the starting
  value taken once more, stated below as `score_comm` and `max_rowMax`.
-/
import Idealize.ShloMosaic.PureOps.Ideal
import Mathlib.Data.Finset.Fold

noncomputable section

namespace Cert.AbsEnc.Spec

open Idealize.ShloMosaic

/-- The value both programs start the row maximum from: the f32 pattern of −∞. -/
abbrev ninf : EReal := Ideal.ofBits .f32 0xFF800000#32

/-- The dense projection of one context row: `(∑ k, y k · w k d) + b d`. -/
def proj (y : Fin 2560 → EReal) (w : Fin 2560 → Fin 512 → EReal) (b : Fin 512 → EReal) (d : Fin 512) : EReal :=
  (∑ k : Fin 2560, y k * w k d) + b d

/-- The masked score of a projected row `p` against source position `x`: `(∑ d, p d · xe x d) + mb x`. -/
def score (p : Fin 512 → EReal) (xe : Fin 1024 → Fin 512 → EReal) (mb : Fin 1024 → EReal) (x : Fin 1024) : EReal :=
  (∑ d : Fin 512, p d * xe x d) + mb x

/-- The maximum of a score row, as the fold of `max` from `ninf` over the 1024 positions. -/
def rowMax (ninf : EReal) (f : Fin 1024 → EReal) : EReal :=
  (Finset.univ : Finset (Fin 1024)).fold max ninf f

/-- The softmax of a score row at position `x`. -/
def soft (ninf : EReal) (f : Fin 1024 → EReal) (x : Fin 1024) : EReal :=
  Ideal.div (Ideal.exp (f x - rowMax ninf f)) (∑ x' : Fin 1024, Ideal.exp (f x' - rowMax ninf f))

/-- The attention weights of one (batch row, context row) pair. -/
def attn (ninf : EReal) (y : Fin 2560 → EReal) (w : Fin 2560 → Fin 512 → EReal) (b : Fin 512 → EReal)
    (xe : Fin 1024 → Fin 512 → EReal) (mb : Fin 1024 → EReal) : Fin 1024 → EReal :=
  soft ninf (score (proj y w b) xe mb)

/-- The attention read-out of one (batch row, context row) pair: `∑ x, attn x · xe x d`. -/
def outp (ninf : EReal) (y : Fin 2560 → EReal) (w : Fin 2560 → Fin 512 → EReal) (b : Fin 512 → EReal)
    (xe : Fin 1024 → Fin 512 → EReal) (mb : Fin 1024 → EReal) (d : Fin 512) : EReal :=
  ∑ x : Fin 1024, attn ninf y w b xe mb x * xe x d

/-- The score with the two factors of each product exchanged is the same score. -/
theorem score_comm (p : Fin 512 → EReal) (xe : Fin 1024 → Fin 512 → EReal) (mb : Fin 1024 → EReal) (x : Fin 1024) :
    (∑ d : Fin 512, xe x d * p d) + mb x = score p xe mb x := by
  unfold score
  exact congrArg (· + mb x) (Finset.sum_congr rfl fun d _ => mul_comm _ _)

/-- Taking the maximum with the starting value once more changes nothing: the fold is already above it. -/
theorem max_rowMax (ninf : EReal) (f : Fin 1024 → EReal) : max ninf (rowMax ninf f) = rowMax ninf f :=
  max_eq_right ((Finset.le_fold_max _).mpr (Or.inl le_rfl))

end Cert.AbsEnc.Spec

end
-- ==== Proof.KernelPay.lean ====
/-
  The kernel body's two stored values, read at one index of a block of four batch rows.
  For loaded blocks `v0` (context embeddings, 4 × 128 × 2560), `v2` (source embeddings, 4 × 1024 × 512), `v4`
  (projection weights), `v6` (bias, as one row) and `v8` (mask, 4 × 1 × 1024), the softmax block at (bl, s, x) is the
  attention weight of batch row `bl`, context row `s` at source position `x`, and the output block at (bl, s, d) the
  read-out: the specification's `attn` and `outp` of that batch row's slices.
-/
import proofs.«401462_j84353157693655_3_alg».proof.Proof.Gen.KernelIdeal.Skeleton
import proofs.«401462_j84353157693655_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.AbsEnc.KernelPay

open Cert.KernelIdeal Cert.KernelIdeal.Gen Idealize.ShloMosaic Idealize.ShloMosaic.ValueIdx
open Cert.AbsEnc

/-! ## The layout operations at an index

The body flattens the four batch rows' 128 context rows into 512 rows for the projection and cuts them apart again:
row `bl · 128 + s` of the flat block is context row `s` of batch row `bl`. -/

/-- The flat row that holds context row `s` of batch row `bl`. -/
abbrev flatRow (bl : Fin 4) (s : Fin 128) : Fin 512 :=
  ⟨bl.val * 128 + s.val, by have := bl.isLt; have := s.isLt; omega⟩

section Layout
variable {α : Type}

/-- The [4, 128, 2560] block flattened to [512, 2560], read at flat row `bl · 128 + s`: the block at (bl, s, ·). -/
theorem flatten_apply (a : S4x128x2560.Idx → α) (h : S4x128x2560.ShapeCasts S512x2560)
    (bl : Fin 4) (s : Fin 128) (k : Fin 2560) :
    shapeCast S512x2560 a h (ix2 (flatRow bl s) k) = a (ix3 bl s k) :=
  shapeCast_apply a h _ _ (by
    rw [Shape.rowMajor_val_three, Shape.rowMajor_val_two]
    rfl)

/-- The [512, 512] block cut into [4, 128, 512], read at (bl, s, d): the flat block at row `bl · 128 + s`. -/
theorem unflatten_apply (a : S512x512.Idx → α) (h : S512x512.ShapeCasts S4x128x512)
    (bl : Fin 4) (s : Fin 128) (d : Fin 512) :
    shapeCast S4x128x512 a h (ix3 bl s d) = a (ix2 (flatRow bl s) d) :=
  shapeCast_apply a h _ _ (by
    rw [Shape.rowMajor_val_three, Shape.rowMajor_val_two]
    rfl)

/-- The mask [4, 1, 1024] spread over the 128 context rows reads, at (bl, s, x), the mask at (bl, 0, x). -/
theorem maskRows_apply (a : S4x1x1024.Idx → α) (h : S4x1x1024.Broadcasts S4x128x1024)
    (bl : Fin 4) (s : Fin 128) (x : Fin 1024) :
    broadcastTo S4x128x1024 a h (ix3 bl s x) = a (ix3 bl (0 : Fin 1) x) :=
  broadcastTo_apply a h _ _ fun ax => by
    match ax with
    | ⟨0, _⟩ => rfl
    | ⟨1, _⟩ => rfl
    | ⟨2, _⟩ => rfl

/-- A per-row column [4, 128, 1] spread over the 1024 positions reads, at (bl, s, x), the column at (bl, s, 0). -/
theorem column_apply (a : S4x128x1.Idx → α) (h : S4x128x1.Broadcasts S4x128x1024)
    (bl : Fin 4) (s : Fin 128) (x : Fin 1024) :
    broadcastTo S4x128x1024 a h (ix3 bl s x) = a (ix3 bl s (0 : Fin 1)) :=
  broadcastTo_apply a h _ _ fun ax => by
    match ax with
    | ⟨0, _⟩ => rfl
    | ⟨1, _⟩ => rfl
    | ⟨2, _⟩ => rfl

/-- A per-row value [4, 128] given a trailing unit axis reads, at (bl, s, u), the value at (bl, s). -/
theorem keepdim_apply (a : S4x128.Idx → α) (h : S4x128.ShapeCasts S4x128x1)
    (bl : Fin 4) (s : Fin 128) (u : Fin 1) :
    shapeCast S4x128x1 a h (ix3 bl s u) = a (ix2 bl s) :=
  shapeCast_apply a h _ _ (by
    have hu : u.val = 0 := by omega
    rw [Shape.rowMajor_val_three, Shape.rowMajor_val_two]
    show bl.val * 128 + s.val = (bl.val * 128 + s.val) * 1 + u.val
    rw [hu, Nat.mul_one, Nat.add_zero])

end Layout

/-! ## The two lane reductions at an index

Both run over the 1024 source positions of one (batch row, context row) pair. -/

/-- The source index over (bl, s) with position `k` inserted on the reduced axis is (bl, s, k). -/
theorem lift_eq (h : S4x128x1024.Reduces [2] S4x128) (bl : Fin 4) (s : Fin 128) (k : Fin 1024) :
    h.lift (ix2 bl s) k = ix3 bl s k :=
  funext fun c => Fin.ext (by
    match c with
    | ⟨0, _⟩ => rfl
    | ⟨1, _⟩ => rfl
    | ⟨2, _⟩ => rfl)

/-- The sum over the positions, at (bl, s): `∑ k, src (bl, s, k)`. -/
theorem rowSum_apply (src : FVec Ideal S4x128x1024 .f32) (h : S4x128x1024.Reduces [2] S4x128)
    (hφ : FKind.Formats .f32) (hacc : (0x00000000#32 : BitVec (FTy.bits .f32)) = 0x00000000#32) (bl : Fin 4) (s : Fin 128) :
    multiReduction (F := Ideal) .add [2] S4x128 src 0x00000000#32 h hφ hacc (ix2 bl s)
      = ∑ k : Fin 1024, src (ix3 bl s k) := by
  refine (Ideal.multiReduction_add_single src 0x00000000#32 h hφ hacc (ix2 bl s)).trans ?_
  exact Finset.sum_congr rfl fun k _ => congrArg src (lift_eq h bl s k)

/-- The maximum over the positions, at (bl, s): the fold of `max` from the pattern of −∞ over `src (bl, s, ·)`. -/
theorem rowMax_apply (src : FVec Ideal S4x128x1024 .f32) (h : S4x128x1024.Reduces [2] S4x128)
    (hφ : FKind.Formats .f32) (hacc : (0xFF800000#32 : BitVec (FTy.bits .f32)) = 0xFF800000#32) (bl : Fin 4) (s : Fin 128) :
    multiReduction (F := Ideal) .maximumf [2] S4x128 src 0xFF800000#32 h hφ hacc (ix2 bl s)
      = Spec.rowMax Spec.ninf (fun k => src (ix3 bl s k)) := by
  refine (Ideal.multiReduction_maximumf_single src 0xFF800000#32 h hφ hacc (ix2 bl s)).trans ?_
  unfold Spec.rowMax
  have e : (src ∘ h.lift (ix2 bl s)) = fun k => src (ix3 bl s k) :=
    funext fun k => congrArg src (lift_eq h bl s k)
  rw [e]
  rfl

/-! ## The three matrix products at an index

Each accumulates into the zero block, so at an index it is the sum over its one contracted axis of the operands'
products. The operand indices are read off the dimension numbers axis by axis. -/

/-! ### The projection: [512, 2560] × [2560, 512], contracting the 2560 embedding entries -/

theorem lhs_proj_0 (i : S512x512.Idx) (q : dot_S512x2560_S2560x512_S512x512_1_0_0_1_n_n.contr.Idx) :
    (dot_S512x2560_S2560x512_S512x512_1_0_0_1_n_n.lhsIdx i q 0).val = (i 0).val := by
  unfold DotDims.lhsIdx
  rw [dif_neg (show ¬(0 : Fin S512x2560.rank) ∈ dot_S512x2560_S2560x512_S512x512_1_0_0_1_n_n.lhsBatch by decide), dif_pos (show (0 : Fin S512x2560.rank) ∈ dot_S512x2560_S2560x512_S512x512_1_0_0_1_n_n.lhsNonContracting by decide)]
  rfl
theorem lhs_proj_1 (i : S512x512.Idx) (q : dot_S512x2560_S2560x512_S512x512_1_0_0_1_n_n.contr.Idx) :
    (dot_S512x2560_S2560x512_S512x512_1_0_0_1_n_n.lhsIdx i q 1).val = (q ⟨0, by decide⟩).val :=
  dot_S512x2560_S2560x512_S512x512_1_0_0_1_n_n.lhsIdx_val_of_single rfl i q
theorem rhs_proj_0 (i : S512x512.Idx) (q : dot_S512x2560_S2560x512_S512x512_1_0_0_1_n_n.contr.Idx) :
    (dot_S512x2560_S2560x512_S512x512_1_0_0_1_n_n.rhsIdx i q 0).val = (q ⟨0, by decide⟩).val :=
  dot_S512x2560_S2560x512_S512x512_1_0_0_1_n_n.rhsIdx_val_of_single rfl i q
theorem rhs_proj_1 (i : S512x512.Idx) (q : dot_S512x2560_S2560x512_S512x512_1_0_0_1_n_n.contr.Idx) :
    (dot_S512x2560_S2560x512_S512x512_1_0_0_1_n_n.rhsIdx i q 1).val = (i 1).val := by
  unfold DotDims.rhsIdx
  rw [dif_neg (show ¬(1 : Fin S2560x512.rank) ∈ dot_S512x2560_S2560x512_S512x512_1_0_0_1_n_n.rhsBatch by decide), dif_pos (show (1 : Fin S2560x512.rank) ∈ dot_S512x2560_S2560x512_S512x512_1_0_0_1_n_n.rhsNonContracting by decide)]
  rfl

/-- The projection's product at (r, d): `∑ k, a (r, k) · b (k, d)`. -/
theorem projMatmul_apply (a : FVec Ideal S512x2560 .bf16) (b : FVec Ideal S2560x512 .bf16) (r d : Fin 512) :
    FloatOps.matmul dot_S512x2560_S2560x512_S512x512_1_0_0_1_n_n none a b (constant (F := Ideal) S512x512 .f32 0x00000000#32) (ix2 r d)
      = ∑ k : Fin 2560, a (ix2 r k) * b (ix2 k d) := by
  rw [Ideal.matmul_constant_zero_apply, ← Equiv.sum_comp (contrEquiv1 dot_S512x2560_S2560x512_S512x512_1_0_0_1_n_n 2560 rfl rfl).symm]
  refine Finset.sum_congr rfl fun k _ => ?_
  have hk := contrEquiv1_symm_val dot_S512x2560_S2560x512_S512x512_1_0_0_1_n_n 2560 rfl rfl k
  have el : dot_S512x2560_S2560x512_S512x512_1_0_0_1_n_n.lhsIdx (ix2 r d) ((contrEquiv1 dot_S512x2560_S2560x512_S512x512_1_0_0_1_n_n 2560 rfl rfl).symm k) = ix2 r k := funext fun ax => Fin.ext (by
    match ax with
    | ⟨0, _⟩ => exact lhs_proj_0 _ _
    | ⟨1, _⟩ => exact (lhs_proj_1 _ _).trans hk)
  have er : dot_S512x2560_S2560x512_S512x512_1_0_0_1_n_n.rhsIdx (ix2 r d) ((contrEquiv1 dot_S512x2560_S2560x512_S512x512_1_0_0_1_n_n 2560 rfl rfl).symm k) = ix2 k d := funext fun ax => Fin.ext (by
    match ax with
    | ⟨0, _⟩ => exact (rhs_proj_0 _ _).trans hk
    | ⟨1, _⟩ => exact rhs_proj_1 _ _)
  rw [el, er]

/-! ### The scores: per batch row, [128, 512] against [1024, 512], contracting the 512 projected entries of both -/

theorem lhs_score_0 (i : S4x128x1024.Idx) (q : dot_S4x128x512_S4x1024x512_S4x128x1024_2_2_1_1_0_0.contr.Idx) :
    (dot_S4x128x512_S4x1024x512_S4x128x1024_2_2_1_1_0_0.lhsIdx i q 0).val = (i 0).val := by
  unfold DotDims.lhsIdx
  rw [dif_pos (show (0 : Fin S4x128x512.rank) ∈ dot_S4x128x512_S4x1024x512_S4x128x1024_2_2_1_1_0_0.lhsBatch by decide)]
  rfl
theorem lhs_score_1 (i : S4x128x1024.Idx) (q : dot_S4x128x512_S4x1024x512_S4x128x1024_2_2_1_1_0_0.contr.Idx) :
    (dot_S4x128x512_S4x1024x512_S4x128x1024_2_2_1_1_0_0.lhsIdx i q 1).val = (i 1).val := by
  unfold DotDims.lhsIdx
  rw [dif_neg (show ¬(1 : Fin S4x128x512.rank) ∈ dot_S4x128x512_S4x1024x512_S4x128x1024_2_2_1_1_0_0.lhsBatch by decide), dif_pos (show (1 : Fin S4x128x512.rank) ∈ dot_S4x128x512_S4x1024x512_S4x128x1024_2_2_1_1_0_0.lhsNonContracting by decide)]
  rfl
theorem lhs_score_2 (i : S4x128x1024.Idx) (q : dot_S4x128x512_S4x1024x512_S4x128x1024_2_2_1_1_0_0.contr.Idx) :
    (dot_S4x128x512_S4x1024x512_S4x128x1024_2_2_1_1_0_0.lhsIdx i q 2).val = (q ⟨0, by decide⟩).val :=
  dot_S4x128x512_S4x1024x512_S4x128x1024_2_2_1_1_0_0.lhsIdx_val_of_single rfl i q
theorem rhs_score_0 (i : S4x128x1024.Idx) (q : dot_S4x128x512_S4x1024x512_S4x128x1024_2_2_1_1_0_0.contr.Idx) :
    (dot_S4x128x512_S4x1024x512_S4x128x1024_2_2_1_1_0_0.rhsIdx i q 0).val = (i 0).val := by
  unfold DotDims.rhsIdx
  rw [dif_pos (show (0 : Fin S4x1024x512.rank) ∈ dot_S4x128x512_S4x1024x512_S4x128x1024_2_2_1_1_0_0.rhsBatch by decide)]
  rfl
theorem rhs_score_1 (i : S4x128x1024.Idx) (q : dot_S4x128x512_S4x1024x512_S4x128x1024_2_2_1_1_0_0.contr.Idx) :
    (dot_S4x128x512_S4x1024x512_S4x128x1024_2_2_1_1_0_0.rhsIdx i q 1).val = (i 2).val := by
  unfold DotDims.rhsIdx
  rw [dif_neg (show ¬(1 : Fin S4x1024x512.rank) ∈ dot_S4x128x512_S4x1024x512_S4x128x1024_2_2_1_1_0_0.rhsBatch by decide), dif_pos (show (1 : Fin S4x1024x512.rank) ∈ dot_S4x128x512_S4x1024x512_S4x128x1024_2_2_1_1_0_0.rhsNonContracting by decide)]
  rfl
theorem rhs_score_2 (i : S4x128x1024.Idx) (q : dot_S4x128x512_S4x1024x512_S4x128x1024_2_2_1_1_0_0.contr.Idx) :
    (dot_S4x128x512_S4x1024x512_S4x128x1024_2_2_1_1_0_0.rhsIdx i q 2).val = (q ⟨0, by decide⟩).val :=
  dot_S4x128x512_S4x1024x512_S4x128x1024_2_2_1_1_0_0.rhsIdx_val_of_single rfl i q

/-- The score product at (bl, s, x): `∑ d, a (bl, s, d) · b (bl, x, d)`. -/
theorem scoreMatmul_apply (a : FVec Ideal S4x128x512 .bf16) (b : FVec Ideal S4x1024x512 .bf16)
    (bl : Fin 4) (s : Fin 128) (x : Fin 1024) :
    FloatOps.matmul dot_S4x128x512_S4x1024x512_S4x128x1024_2_2_1_1_0_0 none a b (constant (F := Ideal) S4x128x1024 .f32 0x00000000#32) (ix3 bl s x)
      = ∑ d : Fin 512, a (ix3 bl s d) * b (ix3 bl x d) := by
  rw [Ideal.matmul_constant_zero_apply, ← Equiv.sum_comp (contrEquiv1 dot_S4x128x512_S4x1024x512_S4x128x1024_2_2_1_1_0_0 512 rfl rfl).symm]
  refine Finset.sum_congr rfl fun k _ => ?_
  have hk := contrEquiv1_symm_val dot_S4x128x512_S4x1024x512_S4x128x1024_2_2_1_1_0_0 512 rfl rfl k
  have el : dot_S4x128x512_S4x1024x512_S4x128x1024_2_2_1_1_0_0.lhsIdx (ix3 bl s x) ((contrEquiv1 dot_S4x128x512_S4x1024x512_S4x128x1024_2_2_1_1_0_0 512 rfl rfl).symm k) = ix3 bl s k := funext fun ax => Fin.ext (by
    match ax with
    | ⟨0, _⟩ => exact lhs_score_0 _ _
    | ⟨1, _⟩ => exact lhs_score_1 _ _
    | ⟨2, _⟩ => exact (lhs_score_2 _ _).trans hk)
  have er : dot_S4x128x512_S4x1024x512_S4x128x1024_2_2_1_1_0_0.rhsIdx (ix3 bl s x) ((contrEquiv1 dot_S4x128x512_S4x1024x512_S4x128x1024_2_2_1_1_0_0 512 rfl rfl).symm k) = ix3 bl x k := funext fun ax => Fin.ext (by
    match ax with
    | ⟨0, _⟩ => exact rhs_score_0 _ _
    | ⟨1, _⟩ => exact rhs_score_1 _ _
    | ⟨2, _⟩ => exact (rhs_score_2 _ _).trans hk)
  rw [el, er]

/-! ### The read-out: per batch row, [128, 1024] × [1024, 512], contracting the 1024 source positions -/

theorem lhs_out_0 (i : S4x128x512.Idx) (q : dot_S4x128x1024_S4x1024x512_S4x128x512_2_1_1_2_0_0.contr.Idx) :
    (dot_S4x128x1024_S4x1024x512_S4x128x512_2_1_1_2_0_0.lhsIdx i q 0).val = (i 0).val := by
  unfold DotDims.lhsIdx
  rw [dif_pos (show (0 : Fin S4x128x1024.rank) ∈ dot_S4x128x1024_S4x1024x512_S4x128x512_2_1_1_2_0_0.lhsBatch by decide)]
  rfl
theorem lhs_out_1 (i : S4x128x512.Idx) (q : dot_S4x128x1024_S4x1024x512_S4x128x512_2_1_1_2_0_0.contr.Idx) :
    (dot_S4x128x1024_S4x1024x512_S4x128x512_2_1_1_2_0_0.lhsIdx i q 1).val = (i 1).val := by
  unfold DotDims.lhsIdx
  rw [dif_neg (show ¬(1 : Fin S4x128x1024.rank) ∈ dot_S4x128x1024_S4x1024x512_S4x128x512_2_1_1_2_0_0.lhsBatch by decide), dif_pos (show (1 : Fin S4x128x1024.rank) ∈ dot_S4x128x1024_S4x1024x512_S4x128x512_2_1_1_2_0_0.lhsNonContracting by decide)]
  rfl
theorem lhs_out_2 (i : S4x128x512.Idx) (q : dot_S4x128x1024_S4x1024x512_S4x128x512_2_1_1_2_0_0.contr.Idx) :
    (dot_S4x128x1024_S4x1024x512_S4x128x512_2_1_1_2_0_0.lhsIdx i q 2).val = (q ⟨0, by decide⟩).val :=
  dot_S4x128x1024_S4x1024x512_S4x128x512_2_1_1_2_0_0.lhsIdx_val_of_single rfl i q
theorem rhs_out_0 (i : S4x128x512.Idx) (q : dot_S4x128x1024_S4x1024x512_S4x128x512_2_1_1_2_0_0.contr.Idx) :
    (dot_S4x128x1024_S4x1024x512_S4x128x512_2_1_1_2_0_0.rhsIdx i q 0).val = (i 0).val := by
  unfold DotDims.rhsIdx
  rw [dif_pos (show (0 : Fin S4x1024x512.rank) ∈ dot_S4x128x1024_S4x1024x512_S4x128x512_2_1_1_2_0_0.rhsBatch by decide)]
  rfl
theorem rhs_out_1 (i : S4x128x512.Idx) (q : dot_S4x128x1024_S4x1024x512_S4x128x512_2_1_1_2_0_0.contr.Idx) :
    (dot_S4x128x1024_S4x1024x512_S4x128x512_2_1_1_2_0_0.rhsIdx i q 1).val = (q ⟨0, by decide⟩).val :=
  dot_S4x128x1024_S4x1024x512_S4x128x512_2_1_1_2_0_0.rhsIdx_val_of_single rfl i q
theorem rhs_out_2 (i : S4x128x512.Idx) (q : dot_S4x128x1024_S4x1024x512_S4x128x512_2_1_1_2_0_0.contr.Idx) :
    (dot_S4x128x1024_S4x1024x512_S4x128x512_2_1_1_2_0_0.rhsIdx i q 2).val = (i 2).val := by
  unfold DotDims.rhsIdx
  rw [dif_neg (show ¬(2 : Fin S4x1024x512.rank) ∈ dot_S4x128x1024_S4x1024x512_S4x128x512_2_1_1_2_0_0.rhsBatch by decide), dif_pos (show (2 : Fin S4x1024x512.rank) ∈ dot_S4x128x1024_S4x1024x512_S4x128x512_2_1_1_2_0_0.rhsNonContracting by decide)]
  rfl

/-- The read-out product at (bl, s, d): `∑ x, a (bl, s, x) · b (bl, x, d)`. -/
theorem outMatmul_apply (a : FVec Ideal S4x128x1024 .bf16) (b : FVec Ideal S4x1024x512 .bf16)
    (bl : Fin 4) (s : Fin 128) (d : Fin 512) :
    FloatOps.matmul dot_S4x128x1024_S4x1024x512_S4x128x512_2_1_1_2_0_0 none a b (constant (F := Ideal) S4x128x512 .f32 0x00000000#32) (ix3 bl s d)
      = ∑ x : Fin 1024, a (ix3 bl s x) * b (ix3 bl x d) := by
  rw [Ideal.matmul_constant_zero_apply, ← Equiv.sum_comp (contrEquiv1 dot_S4x128x1024_S4x1024x512_S4x128x512_2_1_1_2_0_0 1024 rfl rfl).symm]
  refine Finset.sum_congr rfl fun k _ => ?_
  have hk := contrEquiv1_symm_val dot_S4x128x1024_S4x1024x512_S4x128x512_2_1_1_2_0_0 1024 rfl rfl k
  have el : dot_S4x128x1024_S4x1024x512_S4x128x512_2_1_1_2_0_0.lhsIdx (ix3 bl s d) ((contrEquiv1 dot_S4x128x1024_S4x1024x512_S4x128x512_2_1_1_2_0_0 1024 rfl rfl).symm k) = ix3 bl s k := funext fun ax => Fin.ext (by
    match ax with
    | ⟨0, _⟩ => exact lhs_out_0 _ _
    | ⟨1, _⟩ => exact lhs_out_1 _ _
    | ⟨2, _⟩ => exact (lhs_out_2 _ _).trans hk)
  have er : dot_S4x128x1024_S4x1024x512_S4x128x512_2_1_1_2_0_0.rhsIdx (ix3 bl s d) ((contrEquiv1 dot_S4x128x1024_S4x1024x512_S4x128x512_2_1_1_2_0_0 1024 rfl rfl).symm k) = ix3 bl k d := funext fun ax => Fin.ext (by
    match ax with
    | ⟨0, _⟩ => exact rhs_out_0 _ _
    | ⟨1, _⟩ => exact (rhs_out_1 _ _).trans hk
    | ⟨2, _⟩ => exact rhs_out_2 _ _)
  rw [el, er]

/-! ## The exponential at an index -/

/-- The vector exponential at an index is the ideal exponential of the element. -/
theorem exp_apply {s : Shape} {φ : FTy} (a : FVec Ideal s φ) (i : s.Idx) : exp a i = Ideal.exp (a i) := rfl

/-- Push an index through the pointwise, layout and product stages of the body (everything but the two reductions). -/
local macro "push_index" : tactic =>
  `(tactic| simp only [divf_apply, exp_apply, subf_apply, addf_apply, truncf_apply, column_apply, keepdim_apply,
    maskRows_apply, scoreMatmul_apply, outMatmul_apply, unflatten_apply, projMatmul_apply, flatten_apply,
    broadcastTo_1b_ab_apply])

/-! ## The two stored values -/

theorem pay2_apply (v0 : Vec Ideal S4x128x2560 .bf16) (v2 : Vec Ideal S4x1024x512 .bf16) (v4 : Vec Ideal S2560x512 .bf16)
    (v6 : Vec Ideal S1x512 .f32) (v8 : Vec Ideal S4x1x1024 .f32) (bl : Fin 4) (s : Fin 128) (x : Fin 1024) :
    (k0_pay2 v0 v2 v4 v6 v8 (ix3 bl s x) : EReal)
      = Spec.attn Spec.ninf (fun k => (v0 (ix3 bl s k) : EReal)) (fun k d => (v4 (ix2 k d) : EReal))
          (fun d => (v6 (ix2 (0 : Fin 1) d) : EReal)) (fun x' d => (v2 (ix3 bl x' d) : EReal))
          (fun x' => (v8 (ix3 bl (0 : Fin 1) x') : EReal)) x := by
  unfold k0_pay2 k0_pay1
  simp only [shapeCast_self, matmul]
  push_index
  rw [rowSum_apply]
  push_index
  rw [rowMax_apply]
  push_index
  rfl

theorem pay3_apply (v0 : Vec Ideal S4x128x2560 .bf16) (v2 : Vec Ideal S4x1024x512 .bf16) (v4 : Vec Ideal S2560x512 .bf16)
    (v6 : Vec Ideal S1x512 .f32) (v8 : Vec Ideal S4x1x1024 .f32) (bl : Fin 4) (s : Fin 128) (d : Fin 512) :
    (k0_pay3 v0 v2 v4 v6 v8 (ix3 bl s d) : EReal)
      = Spec.outp Spec.ninf (fun k => (v0 (ix3 bl s k) : EReal)) (fun k d' => (v4 (ix2 k d') : EReal))
          (fun d' => (v6 (ix2 (0 : Fin 1) d') : EReal)) (fun x' d' => (v2 (ix3 bl x' d') : EReal))
          (fun x' => (v8 (ix3 bl (0 : Fin 1) x') : EReal)) d := by
  unfold k0_pay3 k0_pay1
  simp only [shapeCast_self, matmul]
  push_index
  simp only [pay2_apply]
  rfl

end Cert.AbsEnc.KernelPay

end
-- ==== Proof.Blocks.lean ====
/-
  From what one grid point writes to the whole result arrays.

  The grid has eight points; point `t` works on batch rows `4t … 4t + 3`: its blocks of the context embeddings, the
  source embeddings and the mask are those four batch rows of their arrays, the projection weights and the bias are
  whole at every point, and it writes those four batch rows of the two results. So the softmax block it writes is, at
  (bl, s, x), the attention weight of batch row `4t + bl` — the specification's `attn` of that batch row's slices of the
  arrays the region finds —, and likewise the read-out. The eight blocks tile the results (batch row `b` is point
  `b / 4`'s), so each result array ends holding that one function (`GA`, `GO`) of the arrays the region finds.
-/
import proofs.«401462_j84353157693655_3_alg».proof.Proof.Gen.KernelIdeal.Value
import proofs.«401462_j84353157693655_3_alg».proof.Proof.KernelPay
import proofs.«401462_j84353157693655_3_alg».proof.Proof.Spec
import Idealize.ShloMosaic.Lib.ValueIdx
import Idealize.ShloMosaic.Lib.Pipeline.Value

noncomputable section

namespace Cert.AbsEnc.Blocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.AbsEnc

variable (m : (ℓ : Loc nD τ sig) → Buf (Elt Ideal) ℓ) (ρ : Dev nD → PrngReg)

/-! ## The arrays the region finds, and the two results as functions of them -/

/-- The context embeddings (32 × 128 × 2560), the source embeddings (32 × 1024 × 512), the projection weights, the
    bias as one row and the mask (32 × 1 × 1024), as the region finds them. -/
abbrev yceA (c : Dev nD) : S32x128x2560.Idx → EReal := V m c main_v16
abbrev xeA (c : Dev nD) : S32x1024x512.Idx → EReal := V m c main_v8
abbrev pwA (c : Dev nD) : S2560x512.Idx → EReal := V m c main_v22
abbrev pbA (c : Dev nD) : S1x512.Idx → EReal := V m c main_v23
abbrev mbA (c : Dev nD) : S32x1x1024.Idx → EReal := V m c main_v21

/-- The attention weights: at (b, s, x) the specification's `attn` of batch row `b`'s slices. -/
def GA (c : Dev nD) : S32x128x1024.Idx → EReal := fun i =>
  Spec.attn Spec.ninf (fun k => yceA m c (ix3 (i 0) (i 1) k)) (fun k d => pwA m c (ix2 k d))
    (fun d => pbA m c (ix2 (0 : Fin 1) d)) (fun x d => xeA m c (ix3 (i 0) x d))
    (fun x => mbA m c (ix3 (i 0) (0 : Fin 1) x)) (i 2)

/-- The read-out: at (b, s, d) the specification's `outp` of batch row `b`'s slices. -/
def GO (c : Dev nD) : S32x128x512.Idx → EReal := fun i =>
  Spec.outp Spec.ninf (fun k => yceA m c (ix3 (i 0) (i 1) k)) (fun k d => pwA m c (ix2 k d))
    (fun d => pbA m c (ix2 (0 : Fin 1) d)) (fun x d => xeA m c (ix3 (i 0) x d))
    (fun x => mbA m c (ix3 (i 0) (0 : Fin 1) x)) (i 2)

/-- `attn` and `outp` of equal slices are equal. -/
theorem attn_congr {n : EReal} {y y' : Fin 2560 → EReal} {w w' : Fin 2560 → Fin 512 → EReal} {b b' : Fin 512 → EReal}
    {xe xe' : Fin 1024 → Fin 512 → EReal} {mb mb' : Fin 1024 → EReal}
    (hy : y = y') (hw : w = w') (hb : b = b') (hx : xe = xe') (hm : mb = mb') (x : Fin 1024) :
    Spec.attn n y w b xe mb x = Spec.attn n y' w' b' xe' mb' x := by
  subst hy hw hb hx hm; rfl
theorem outp_congr {n : EReal} {y y' : Fin 2560 → EReal} {w w' : Fin 2560 → Fin 512 → EReal} {b b' : Fin 512 → EReal}
    {xe xe' : Fin 1024 → Fin 512 → EReal} {mb mb' : Fin 1024 → EReal}
    (hy : y = y') (hw : w = w') (hb : b = b') (hx : xe = xe') (hm : mb = mb') (d : Fin 512) :
    Spec.outp n y w b xe mb d = Spec.outp n y' w' b' xe' mb' d := by
  subst hy hw hb hx hm; rfl

/-! ## The blocks of a point -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the eight points: the context, source, mask and both result windows are at
    block `t` of their leading axis and block 0 of the others; the weights and the bias at block 0 throughout. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0) :=
  (by decide +kernel : ∀ t : Fin grid0.N, _)

/-- Batch row `4t + bl`: row `bl` of point `t`'s blocks. -/
def brow (t : Fin cfg0.N) (bl : Fin 4) : Fin 32 :=
  ⟨4 * t.val + bl.val, by have h1 := t.isLt; have hN : cfg0.N = 8 := N_0; have h2 := bl.isLt; omega⟩

/-- The input blocks at a point, at their literal types. -/
abbrev yblk (c : Dev nD) (t : Fin cfg0.N) : Vec Ideal S4x128x2560 .bf16 := iblk m c 0 t
abbrev xblk (c : Dev nD) (t : Fin cfg0.N) : Vec Ideal S4x1024x512 .bf16 := iblk m c 1 t
abbrev wblk (c : Dev nD) (t : Fin cfg0.N) : Vec Ideal S2560x512 .bf16 := iblk m c 2 t
abbrev bblk (c : Dev nD) (t : Fin cfg0.N) : Vec Ideal S1x512 .f32 := iblk m c 3 t
abbrev mblk (c : Dev nD) (t : Fin cfg0.N) : Vec Ideal S4x1x1024 .f32 := iblk m c 4 t

/-- Point `t`'s context block is batch rows `4t … 4t + 3` of the array. -/
theorem yblk_apply (c : Dev nD) (t : Fin cfg0.N) (bl : Fin 4) (s : Fin 128) (k : Fin 2560) :
    (yblk m c t (ix3 bl s k) : EReal) = yceA m c (ix3 (brow t bl) s k) := by
  obtain ⟨⟨e0, e1, e2⟩, -⟩ := idx_facts t
  unfold yblk iblk
  rw [View.read_apply]
  show V m c main_v16 _ = V m c main_v16 _
  congr 1
  funext a
  apply Fin.ext
  match a with
  | ⟨0, _⟩ => show win0_0.index t (0 : Fin 3) * 4 + 1 * bl.val = 4 * t.val + bl.val; rw [e0]; omega
  | ⟨1, _⟩ => show win0_0.index t (1 : Fin 3) * 128 + 1 * s.val = s.val; rw [e1]; omega
  | ⟨2, _⟩ => show win0_0.index t (2 : Fin 3) * 2560 + 1 * k.val = k.val; rw [e2]; omega

/-- Its source block likewise. -/
theorem xblk_apply (c : Dev nD) (t : Fin cfg0.N) (bl : Fin 4) (x : Fin 1024) (d : Fin 512) :
    (xblk m c t (ix3 bl x d) : EReal) = xeA m c (ix3 (brow t bl) x d) := by
  obtain ⟨-, ⟨e0, e1, e2⟩, -⟩ := idx_facts t
  unfold xblk iblk
  rw [View.read_apply]
  show V m c main_v8 _ = V m c main_v8 _
  congr 1
  funext a
  apply Fin.ext
  match a with
  | ⟨0, _⟩ => show win0_1.index t (0 : Fin 3) * 4 + 1 * bl.val = 4 * t.val + bl.val; rw [e0]; omega
  | ⟨1, _⟩ => show win0_1.index t (1 : Fin 3) * 1024 + 1 * x.val = x.val; rw [e1]; omega
  | ⟨2, _⟩ => show win0_1.index t (2 : Fin 3) * 512 + 1 * d.val = d.val; rw [e2]; omega

/-- The weights' block is the whole array at every point. -/
theorem wblk_apply (c : Dev nD) (t : Fin cfg0.N) (k : Fin 2560) (d : Fin 512) :
    (wblk m c t (ix2 k d) : EReal) = pwA m c (ix2 k d) := by
  obtain ⟨-, -, ⟨e0, e1⟩, -⟩ := idx_facts t
  unfold wblk iblk
  rw [View.read_apply]
  show V m c main_v22 _ = V m c main_v22 _
  congr 1
  funext a
  apply Fin.ext
  match a with
  | ⟨0, _⟩ => show win0_2.index t (0 : Fin 2) * 2560 + 1 * k.val = k.val; rw [e0]; omega
  | ⟨1, _⟩ => show win0_2.index t (1 : Fin 2) * 512 + 1 * d.val = d.val; rw [e1]; omega

/-- So is the bias row's. -/
theorem bblk_apply (c : Dev nD) (t : Fin cfg0.N) (d : Fin 512) :
    (bblk m c t (ix2 (0 : Fin 1) d) : EReal) = pbA m c (ix2 (0 : Fin 1) d) := by
  obtain ⟨-, -, -, ⟨e0, e1⟩, -⟩ := idx_facts t
  unfold bblk iblk
  rw [View.read_apply]
  show V m c main_v23 _ = V m c main_v23 _
  congr 1
  funext a
  apply Fin.ext
  match a with
  | ⟨0, _⟩ => show win0_3.index t (0 : Fin 2) * 1 + 1 * 0 = 0; rw [e0]
  | ⟨1, _⟩ => show win0_3.index t (1 : Fin 2) * 512 + 1 * d.val = d.val; rw [e1]; omega

/-- The mask block is batch rows `4t … 4t + 3` of the mask. -/
theorem mblk_apply (c : Dev nD) (t : Fin cfg0.N) (bl : Fin 4) (x : Fin 1024) :
    (mblk m c t (ix3 bl (0 : Fin 1) x) : EReal) = mbA m c (ix3 (brow t bl) (0 : Fin 1) x) := by
  obtain ⟨-, -, -, -, ⟨e0, e1, e2⟩, -⟩ := idx_facts t
  unfold mblk iblk
  rw [View.read_apply]
  show V m c main_v21 _ = V m c main_v21 _
  congr 1
  funext a
  apply Fin.ext
  match a with
  | ⟨0, _⟩ => show win0_4.index t (0 : Fin 3) * 4 + 1 * bl.val = 4 * t.val + bl.val; rw [e0]; omega
  | ⟨1, _⟩ => show win0_4.index t (1 : Fin 3) * 1 + 1 * 0 = 0; rw [e1]
  | ⟨2, _⟩ => show win0_4.index t (2 : Fin 3) * 1024 + 1 * x.val = x.val; rw [e2]; omega

/-! ## What a point writes back is its block of `GA` / `GO` -/

/-- Where row `bl` of point `t`'s softmax block lies in the array. -/
theorem emb6 (t : Fin cfg0.N) (bl : Fin 4) (s : Fin 128) (x : Fin 1024) :
    ((cfg0.win 6).blk t).view.emb (ix3 bl s x) = (ix3 (brow t bl) s x : S32x128x1024.Idx) := by
  obtain ⟨-, -, -, -, -, -, ⟨e0, e1, e2⟩⟩ := idx_facts t
  funext a
  apply Fin.ext
  match a with
  | ⟨0, _⟩ => show win0_6.index t (0 : Fin 3) * 4 + 1 * bl.val = 4 * t.val + bl.val; rw [e0]; omega
  | ⟨1, _⟩ => show win0_6.index t (1 : Fin 3) * 128 + 1 * s.val = s.val; rw [e1]; omega
  | ⟨2, _⟩ => show win0_6.index t (2 : Fin 3) * 1024 + 1 * x.val = x.val; rw [e2]; omega

/-- Where row `bl` of point `t`'s read-out block lies in the array. -/
theorem emb5 (t : Fin cfg0.N) (bl : Fin 4) (s : Fin 128) (d : Fin 512) :
    ((cfg0.win 5).blk t).view.emb (ix3 bl s d) = (ix3 (brow t bl) s d : S32x128x512.Idx) := by
  obtain ⟨-, -, -, -, -, ⟨e0, e1, e2⟩, -⟩ := idx_facts t
  funext a
  apply Fin.ext
  match a with
  | ⟨0, _⟩ => show win0_5.index t (0 : Fin 3) * 4 + 1 * bl.val = 4 * t.val + bl.val; rw [e0]; omega
  | ⟨1, _⟩ => show win0_5.index t (1 : Fin 3) * 128 + 1 * s.val = s.val; rw [e1]; omega
  | ⟨2, _⟩ => show win0_5.index t (2 : Fin 3) * 512 + 1 * d.val = d.val; rw [e2]; omega

/-- Point `t` writes back block `t` of `GA`. -/
theorem flushed6_eq (c : Dev nD) (t : Fin cfg0.N) :
    (dats m 0 c).flushed 6 t = ((cfg0.win 6).blk t).view.read (Elt Ideal) (GA m c) := by
  rw [flushed6]
  unfold out0_6
  rw [View.canon_unit_zero hz3]
  simp only [View.ld_unit_zero (S := S4x128x2560) hz3, View.ld_unit_zero (S := S4x1024x512) hz3,
    View.ld_unit_zero (S := S2560x512) hz2, View.ld_unit_zero (S := S1x512) hz2, View.ld_unit_zero (S := S4x1x1024) hz3]
  funext j
  obtain ⟨bl, s, x, rfl⟩ : ∃ (bl : Fin 4) (s : Fin 128) (x : Fin 1024), j = ix3 bl s x := ⟨j 0, j 1, j 2, eq_ix3 j⟩
  show (k0_pay2 (yblk m c t) (xblk m c t) (wblk m c t) (bblk m c t) (mblk m c t) (ix3 bl s x) : EReal)
    = GA m c (((cfg0.win 6).blk t).view.emb (ix3 bl s x))
  rw [emb6]
  refine (KernelPay.pay2_apply (yblk m c t) (xblk m c t) (wblk m c t) (bblk m c t) (mblk m c t) bl s x).trans ?_
  exact attn_congr (funext fun k => yblk_apply m c t bl s k) (funext fun k => funext fun d => wblk_apply m c t k d)
    (funext fun d => bblk_apply m c t d) (funext fun x' => funext fun d => xblk_apply m c t bl x' d)
    (funext fun x' => mblk_apply m c t bl x') x

/-- Point `t` writes back block `t` of `GO`. -/
theorem flushed5_eq (c : Dev nD) (t : Fin cfg0.N) :
    (dats m 0 c).flushed 5 t = ((cfg0.win 5).blk t).view.read (Elt Ideal) (GO m c) := by
  rw [flushed5]
  unfold out0_5
  rw [View.canon_unit_zero hz3]
  simp only [View.ld_unit_zero (S := S4x128x2560) hz3, View.ld_unit_zero (S := S4x1024x512) hz3,
    View.ld_unit_zero (S := S2560x512) hz2, View.ld_unit_zero (S := S1x512) hz2, View.ld_unit_zero (S := S4x1x1024) hz3]
  funext j
  obtain ⟨bl, s, d, rfl⟩ : ∃ (bl : Fin 4) (s : Fin 128) (d : Fin 512), j = ix3 bl s d := ⟨j 0, j 1, j 2, eq_ix3 j⟩
  show (k0_pay3 (yblk m c t) (xblk m c t) (wblk m c t) (bblk m c t) (mblk m c t) (ix3 bl s d) : EReal)
    = GO m c (((cfg0.win 5).blk t).view.emb (ix3 bl s d))
  rw [emb5]
  refine (KernelPay.pay3_apply (yblk m c t) (xblk m c t) (wblk m c t) (bblk m c t) (mblk m c t) bl s d).trans ?_
  exact outp_congr (funext fun k => yblk_apply m c t bl s k) (funext fun k => funext fun d' => wblk_apply m c t k d')
    (funext fun d' => bblk_apply m c t d') (funext fun x' => funext fun d' => xblk_apply m c t bl x' d')
    (funext fun x' => mblk_apply m c t bl x') d

/-! ## The eight blocks tile each result -/

theorem mem_blk6 (t : Fin cfg0.N) (i : S32x128x1024.Idx) :
    i ∈ ((cfg0.win 6).blk t).view.set ↔ ∀ a : Fin 3, win0_6.index t a * S4x128x1024.size a ≤ (i a).val ∧ (i a).val < win0_6.index t a * S4x128x1024.size a + S4x128x1024.size a := by
  show i ∈ ((View.whole main_v24_1).slice (win0_6.rect t)).set ↔ _
  rw [View.set_slice_whole, Rect.mem_set_unit]
  exact Iff.rfl

theorem mem_blk5 (t : Fin cfg0.N) (i : S32x128x512.Idx) :
    i ∈ ((cfg0.win 5).blk t).view.set ↔ ∀ a : Fin 3, win0_5.index t a * S4x128x512.size a ≤ (i a).val ∧ (i a).val < win0_5.index t a * S4x128x512.size a + S4x128x512.size a := by
  show i ∈ ((View.whole main_v24_0).slice (win0_5.rect t)).set ↔ _
  rw [View.set_slice_whole, Rect.mem_set_unit]
  exact Iff.rfl

/-- The point of batch row `b`: `b / 4`. -/
def pointOf (b : Nat) (hb : b < 32) : Fin cfg0.N := ⟨b / 4, by rw [show cfg0.N = 8 from N_0]; omega⟩

/-- Every index of the attention weights is in the block of its batch row's point. -/
theorem cover6 (i : S32x128x1024.Idx) :
    ∃ t : Fin cfg0.N, (cfg0.win 6).flush t = true ∧ i ∈ ((cfg0.win 6).blk t).view.set := by
  have h0 : (i 0).val < 32 := (i 0).isLt
  have h1 : (i 1).val < 128 := (i 1).isLt
  have h2 : (i 2).val < 1024 := (i 2).isLt
  refine ⟨pointOf (i 0).val h0, flush0_6 _, ?_⟩
  rw [mem_blk6]
  obtain ⟨-, -, -, -, -, -, ⟨e0, e1, e2⟩⟩ := idx_facts (pointOf (i 0).val h0)
  have e0' : win0_6.index (pointOf (i 0).val h0) (0 : Fin 3) = (i 0).val / 4 := e0
  intro a
  match a with
  | ⟨0, _⟩ => show win0_6.index (pointOf (i 0).val h0) (0 : Fin 3) * 4 ≤ (i 0).val ∧ (i 0).val < win0_6.index (pointOf (i 0).val h0) (0 : Fin 3) * 4 + 4; rw [e0']; omega
  | ⟨1, _⟩ => show win0_6.index (pointOf (i 0).val h0) (1 : Fin 3) * 128 ≤ (i 1).val ∧ (i 1).val < win0_6.index (pointOf (i 0).val h0) (1 : Fin 3) * 128 + 128; rw [e1]; omega
  | ⟨2, _⟩ => show win0_6.index (pointOf (i 0).val h0) (2 : Fin 3) * 1024 ≤ (i 2).val ∧ (i 2).val < win0_6.index (pointOf (i 0).val h0) (2 : Fin 3) * 1024 + 1024; rw [e2]; omega

/-- Every index of the read-out is in the block of its batch row's point. -/
theorem cover5 (i : S32x128x512.Idx) :
    ∃ t : Fin cfg0.N, (cfg0.win 5).flush t = true ∧ i ∈ ((cfg0.win 5).blk t).view.set := by
  have h0 : (i 0).val < 32 := (i 0).isLt
  have h1 : (i 1).val < 128 := (i 1).isLt
  have h2 : (i 2).val < 512 := (i 2).isLt
  refine ⟨pointOf (i 0).val h0, flush0_5 _, ?_⟩
  rw [mem_blk5]
  obtain ⟨-, -, -, -, -, ⟨e0, e1, e2⟩, -⟩ := idx_facts (pointOf (i 0).val h0)
  have e0' : win0_5.index (pointOf (i 0).val h0) (0 : Fin 3) = (i 0).val / 4 := e0
  intro a
  match a with
  | ⟨0, _⟩ => show win0_5.index (pointOf (i 0).val h0) (0 : Fin 3) * 4 ≤ (i 0).val ∧ (i 0).val < win0_5.index (pointOf (i 0).val h0) (0 : Fin 3) * 4 + 4; rw [e0']; omega
  | ⟨1, _⟩ => show win0_5.index (pointOf (i 0).val h0) (1 : Fin 3) * 128 ≤ (i 1).val ∧ (i 1).val < win0_5.index (pointOf (i 0).val h0) (1 : Fin 3) * 128 + 128; rw [e1]; omega
  | ⟨2, _⟩ => show win0_5.index (pointOf (i 0).val h0) (2 : Fin 3) * 512 ≤ (i 2).val ∧ (i 2).val < win0_5.index (pointOf (i 0).val h0) (2 : Fin 3) * 512 + 512; rw [e2]; omega

/-- The attention weights' array ends holding `GA`. -/
theorem final6 (c : Dev nD) : (dats m 0 c).arrAt 6 cfg0.N = GA m c :=
  (dats m 0 c).arrAt_eq_of_cover 6 (GA m c) (fun t _ => flushed6_eq m c t) cover6

/-- The read-out's array ends holding `GO`. -/
theorem final5 (c : Dev nD) : (dats m 0 c).arrAt 5 cfg0.N = GO m c :=
  (dats m 0 c).arrAt_eq_of_cover 5 (GO m c) (fun t _ => flushed5_eq m c t) cover5

/-! ## The run, read -/

/-- The kernel's run: the read-out at `GO`, the attention weights at `GA`, the arguments unchanged. -/
theorem run : θ_run defs (onTc (τ := τ) (main (F := Ideal))) ⟨m, fun _ => 0, ρ⟩ fun r => ∀ c : Dev nD,
      r.2.mem ((c : Thread nD τ).loc main_v24_0) = GO m c
      ∧ r.2.mem ((c : Thread nD τ).loc main_v24_1) = GA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final5 m c), (h c).2.1.trans (final6 m c), (h c).2.2⟩)
    (run_blocks m ρ)

end Cert.AbsEnc.Blocks

end
-- ==== Proof.HostArrays.lean ====
/-
  The arrays the kernel region finds, as functions of the arguments.

  Before its one region the kernel's @main gathers the source and context embeddings from bf16 copies of the two
  tables (negative tokens wrapped by adding the table's length first), re-lays the context gather as 32 × 128 × 2560,
  selects the mask (−1e9 where the source token is 0, else 0) and re-lays it as 32 × 1 × 1024, takes a bf16 copy of
  the projection weights and re-lays the bias as a 1 × 512 row. At the ideal values the change of float format is the
  identity, so the two gathers and the re-laid context are, term for term, the reference's own stages of the same
  arguments (`xe_eq`, `yce_eq`), the weights are the argument (`pw_eq`), the bias row at (0, d) is the bias at d
  (`pb_apply`), and the mask at (b, 0, x) is the reference's product of the 0/1 padding indicator with −1e9 at
  (b, x, 0): on the indicator bit 1 both are the constant, on 0 both are 0 (`mb_apply`).
-/
import proofs.«401462_j84353157693655_3_alg».proof.Proof.Gen.KernelIdeal.Frame
import proofs.«401462_j84353157693655_3_alg».proof.Proof.Gen.ReferenceIdeal.Read
import Idealize.ShloMosaic.Lib.StableHlo.Run
import Idealize.ShloMosaic.Lib.ValueIdx
import Idealize.ShloMosaic.Lib.Pipeline.Value
import Idealize.ShloMosaic.PureOps.Ideal.Laws

noncomputable section

namespace Cert.AbsEnc.HostArrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The source embeddings the region finds are the reference's source gather of the same arguments. -/
theorem xe_eq (c : Dev nD) :
    (V m c main_v8 : S32x1024x512.Idx → EReal)
      = Cert.ReferenceIdeal.Read.val_main_v9 (F := Ideal) (m ((c : Thread nD τ).loc main_arg0)) (m ((c : Thread nD τ).loc main_arg2)) := by
  dsimp only [V]
  simp only [hostOps0, hostOps0_1, hostOps0_2, List.flatten_cons, List.flatten_nil, List.append_nil, List.cons_append, List.nil_append]
  after_results_simp <;> rfl

/-- The projection weights the region finds are the argument. -/
theorem pw_eq (c : Dev nD) :
    (V m c main_v22 : S2560x512.Idx → EReal) = m ((c : Thread nD τ).loc main_arg4) := by
  dsimp only [V]
  simp only [hostOps0, hostOps0_1, hostOps0_2, List.flatten_cons, List.flatten_nil, List.append_nil, List.cons_append, List.nil_append]
  after_results_simp <;> rfl

/-- The context embeddings the region finds are the reference's re-laid context gather of the same arguments. -/
theorem yce_eq (c : Dev nD) :
    (V m c main_v16 : S32x128x2560.Idx → EReal)
      = Cert.ReferenceIdeal.Read.val_main_v17 (F := Ideal) (m ((c : Thread nD τ).loc main_arg1)) (m ((c : Thread nD τ).loc main_arg3)) := by
  dsimp only [V]
  simp only [hostOps0, hostOps0_1, hostOps0_2, List.flatten_cons, List.flatten_nil, List.append_nil, List.cons_append, List.nil_append]
  after_results_simp <;> rfl

/-- The bias row at (0, d) is the bias at d. -/
theorem pb_apply (c : Dev nD) (d : Fin 512) :
    (V m c main_v23 : S1x512.Idx → EReal) (ix2 (0 : Fin 1) d) = (m ((c : Thread nD τ).loc main_arg5) : S512.Idx → EReal) (ix1 d) := by
  have e : (V m c main_v23 : S1x512.Idx → EReal)
      = shapeCast S1x512 (m ((c : Thread nD τ).loc main_arg5) : S512.Idx → EReal) shapeCasts_S512_S1x512 := by
    dsimp only [V]
    simp only [hostOps0, hostOps0_1, hostOps0_2, List.flatten_cons, List.flatten_nil, List.append_nil, List.cons_append, List.nil_append]
    after_results_simp <;> rfl
  rw [e]
  refine shapeCast_apply _ shapeCasts_S512_S1x512 (ix2 (0 : Fin 1) d) (ix1 d) ?_
  rewrite [Shape.rowMajor_val_one, Shape.rowMajor_val_two]
  show d.val = 0 * 512 + d.val
  omega

/-- The selected mask at (b, 0, x) is the reference's product of the padding indicator with the constant at (b, x, 0):
    the constant where the indicator bit is 1, and 0 where it is 0. -/
theorem mb_apply (c : Dev nD) (b : Fin 32) (x : Fin 1024) :
    (V m c main_v21 : S32x1x1024.Idx → EReal) (ix3 b (0 : Fin 1) x)
      = Cert.ReferenceIdeal.Read.val_main_v25 (F := Ideal) (m ((c : Thread nD τ).loc main_arg0)) (ix3 b x (0 : Fin 1)) := by
  have e : (V m c main_v21 : S32x1x1024.Idx → EReal)
      = shapeCast S32x1x1024
          (select (Cert.ReferenceIdeal.Read.val_main_v1 (F := Ideal) (m ((c : Thread nD τ).loc main_arg0)))
            (broadcastInDim S32x1024 ![] bcast_S_S32x1024 (constant (F := Ideal) S_ .f32 0xCE6E6B28#32))
            (broadcastInDim S32x1024 ![] bcast_S_S32x1024 (constant (F := Ideal) S_ .f32 0x00000000#32)) : S32x1024.Idx → EReal)
          shapeCasts_S32x1024_S32x1x1024 := by
    dsimp only [V]
    simp only [hostOps0, hostOps0_1, hostOps0_2, List.flatten_cons, List.flatten_nil, List.append_nil, List.cons_append, List.nil_append]
    after_results_simp <;> rfl
  rw [e]
  refine (shapeCast_apply _ shapeCasts_S32x1024_S32x1x1024 (ix3 b (0 : Fin 1) x) (ix2 b x) (by
    rewrite [Shape.rowMajor_val_two, Shape.rowMajor_val_three]
    show b.val * 1024 + x.val = (b.val * 1 + 0) * 1024 + x.val
    omega)).trans ?_
  rw [select_apply, Cert.ReferenceIdeal.Read.val_main_v25_apply, Cert.ReferenceIdeal.Read.val_main_v23_apply,
    Cert.ReferenceIdeal.Read.val_main_v2_apply]
  have hi : Cert.ReferenceIdeal.Read.idx_main_v23 (ix3 b x (0 : Fin 1)) = ix2 b x :=
    funext fun a => match a with | ⟨0, _⟩ => rfl | ⟨1, _⟩ => rfl
  rw [hi]
  generalize Cert.ReferenceIdeal.Read.val_main_v1 (F := Ideal) (m ((c : Thread nD τ).loc main_arg0)) (ix2 b x) = w
  show Scalar.select w (Ideal.ofBits .f32 0xCE6E6B28#32) (Ideal.ofBits .f32 0x00000000#32)
    = ((w.toNat : ℝ) : EReal) * Ideal.ofBits .f32 0xCE6E6B28#32
  by_cases hw : w = 1#1
  · subst hw
    rw [select_one]
    simp
  · have h0 := eq_zero_of_ne_one hw
    subst h0
    rw [select_zero, Ideal.ofBits_zero_f32]
    simp

end Cert.AbsEnc.HostArrays

end
-- ==== Proof.RefRead.lean ====
/-
  The reference's two results, read at one index.
  Its attention weights at (b, s, x) and its read-out at (b, s, d) are the specification's `attn` and `outp` of batch
  row `b`'s slices of its own intermediate arrays: the reshaped context gather, the source gather, the projection
  weights and bias as given, and the mask product (the 0/1 padding indicator times −1e9).
-/
import proofs.«401462_j84353157693655_3_alg».proof.Proof.Gen.ReferenceIdeal.Read
import proofs.«401462_j84353157693655_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.AbsEnc.RefRead

open Cert.ReferenceIdeal Cert.ReferenceIdeal.Gen Idealize.ShloMosaic Idealize.ShloMosaic.ValueIdx
open Cert.ReferenceIdeal.Read
open Cert.AbsEnc

/-! ## Where each stage reads its operands, in coordinates

Every layout stage and every contraction of the reference reads its operand at an index computed from the result's
index; at an index given by its coordinates that operand index is again one given by coordinates. -/

/-- The transposed score at (b, s, x) is the score at (b, x, s). -/
theorem idx_transpose (b : Fin 32) (s : Fin 128) (x : Fin 1024) : idx_main_v28 (ix3 b s x) = ix3 b x s :=
  funext fun a => by match a with | ⟨0, _⟩ => rfl | ⟨1, _⟩ => rfl | ⟨2, _⟩ => rfl

/-- The score's contraction at (b, x, s), term `k`: the source row (b, x) at `k` … -/
theorem lidx_score (b : Fin 32) (x : Fin 1024) (s : Fin 128) (k : Fin 512) : lidx_main_v22 (ix3 b x s) k = ix3 b x k :=
  funext fun a => by match a with | ⟨0, _⟩ => rfl | ⟨1, _⟩ => rfl | ⟨2, _⟩ => rfl

/-- … times the projected row (b, s) at `k`. -/
theorem ridx_score (b : Fin 32) (x : Fin 1024) (s : Fin 128) (k : Fin 512) : ridx_main_v22 (ix3 b x s) k = ix3 b s k :=
  funext fun a => by match a with | ⟨0, _⟩ => rfl | ⟨1, _⟩ => rfl | ⟨2, _⟩ => rfl

/-- The projection's contraction at (b, s, d), term `k`: the context row (b, s) at `k` … -/
theorem lidx_proj (b : Fin 32) (s : Fin 128) (d : Fin 512) (k : Fin 2560) : lidx_main_v18 (ix3 b s d) k = ix3 b s k :=
  funext fun a => by match a with | ⟨0, _⟩ => rfl | ⟨1, _⟩ => rfl | ⟨2, _⟩ => rfl

/-- … times the weight (k, d). -/
theorem ridx_proj (b : Fin 32) (s : Fin 128) (d : Fin 512) (k : Fin 2560) : ridx_main_v18 (ix3 b s d) k = ix2 k d :=
  funext fun a => by match a with | ⟨0, _⟩ => rfl | ⟨1, _⟩ => rfl

/-- The broadcast bias at (b, s, d) is the bias at `d`. -/
theorem idx_bias (b : Fin 32) (s : Fin 128) (d : Fin 512) : idx_main_v19 (idx_main_v20 (ix3 b s d)) = ix1 d :=
  funext fun a => by match a with | ⟨0, _⟩ => rfl

/-- The broadcast mask at (b, x, s) is the mask column at (b, x, 0). -/
theorem idx_mask (b : Fin 32) (x : Fin 1024) (s : Fin 128) : idx_main_v26 (ix3 b x s) = ix3 b x (0 : Fin 1) :=
  funext fun a => by match a with | ⟨0, _⟩ => rfl | ⟨1, _⟩ => rfl | ⟨2, _⟩ => rfl

/-- The broadcast row maximum at (b, s, x) is the maximum at (b, s). -/
theorem idx_max (b : Fin 32) (s : Fin 128) (x : Fin 1024) : idx_main_v32 (idx_main_v33 (ix3 b s x)) = ix2 b s :=
  funext fun a => by match a with | ⟨0, _⟩ => rfl | ⟨1, _⟩ => rfl

/-- The broadcast row sum at (b, s, x) is the sum at (b, s). -/
theorem idx_sum (b : Fin 32) (s : Fin 128) (x : Fin 1024) : idx_main_v37 (idx_main_v38 (ix3 b s x)) = ix2 b s :=
  funext fun a => by match a with | ⟨0, _⟩ => rfl | ⟨1, _⟩ => rfl

/-- The row sum at (b, s), term `k`: the exponential at (b, s, k). -/
theorem idx_sumTerm (b : Fin 32) (s : Fin 128) (k : Fin 1024) : idx_main_v36 (ix2 b s) k = ix3 b s k :=
  funext fun a => by match a with | ⟨0, _⟩ => rfl | ⟨1, _⟩ => rfl | ⟨2, _⟩ => rfl

/-- The read-out's contraction at (b, s, d), term `k`: the attention weight (b, s, k) … -/
theorem lidx_out (b : Fin 32) (s : Fin 128) (d : Fin 512) (k : Fin 1024) : lidx_main_v40 (ix3 b s d) k = ix3 b s k :=
  funext fun a => by match a with | ⟨0, _⟩ => rfl | ⟨1, _⟩ => rfl | ⟨2, _⟩ => rfl

/-- … times the source row (b, k) at `d`. -/
theorem ridx_out (b : Fin 32) (s : Fin 128) (d : Fin 512) (k : Fin 1024) : ridx_main_v40 (ix3 b s d) k = ix3 b k d :=
  funext fun a => by match a with | ⟨0, _⟩ => rfl | ⟨1, _⟩ => rfl | ⟨2, _⟩ => rfl

/-- The row maximum reduces the last axis of the [32, 128, 1024] score array. -/
theorem reduces_last : S32x128x1024.Reduces [2] S32x128 := by decide

/-- Inserting coordinate `k` on the reduced axis over (b, s) gives (b, s, k). -/
theorem lift_last (b : Fin 32) (s : Fin 128) (k : Fin 1024) : reduces_last.lift (ix2 b s) k = ix3 b s k :=
  funext fun a => Fin.ext (by match a with | ⟨0, _⟩ => rfl | ⟨1, _⟩ => rfl | ⟨2, _⟩ => rfl)

variable (x0 : (⟨S32x1024, .i32⟩ : BufTy).Contents (Elt Ideal)) (x1 : (⟨S32x640, .i32⟩ : BufTy).Contents (Elt Ideal))
  (x2 x3 : (⟨S32000x512, .f32⟩ : BufTy).Contents (Elt Ideal)) (x4 : (⟨S2560x512, .f32⟩ : BufTy).Contents (Elt Ideal))
  (x5 : (⟨S512, .f32⟩ : BufTy).Contents (Elt Ideal))

/-! ## Batch row `b`'s slices of the reference's stages -/

/-- Context row `s` of batch row `b`: the reshaped context gather along its last axis. -/
abbrev ctx (b : Fin 32) (s : Fin 128) : Fin 2560 → EReal := fun k => (val_main_v17 (F := Ideal) x1 x3 (ix3 b s k) : EReal)
/-- The projection weights. -/
abbrev wts : Fin 2560 → Fin 512 → EReal := fun k d => (x4 (ix2 k d) : EReal)
/-- The projection bias. -/
abbrev bias : Fin 512 → EReal := fun d => (x5 (ix1 d) : EReal)
/-- The source embeddings of batch row `b`. -/
abbrev src (b : Fin 32) : Fin 1024 → Fin 512 → EReal := fun x' d => (val_main_v9 (F := Ideal) x0 x2 (ix3 b x' d) : EReal)
/-- The additive mask row of batch row `b`. -/
abbrev msk (b : Fin 32) : Fin 1024 → EReal := fun x' => (val_main_v25 (F := Ideal) x0 (ix3 b x' (0 : Fin 1)) : EReal)
/-- The masked score row of (b, s). -/
abbrev scoreRow (b : Fin 32) (s : Fin 128) : Fin 1024 → EReal :=
  Spec.score (Spec.proj (ctx x1 x3 b s) (wts x4) (bias x5)) (src x0 x2 b) (msk x0 b)

/-! ## The stages, one after another -/

/-- The dense projection with its bias at (b, s, d). -/
theorem ref_proj (b : Fin 32) (s : Fin 128) (d : Fin 512) :
    (val_main_v21 (F := Ideal) x1 x3 x4 x5 (ix3 b s d) : EReal) = Spec.proj (ctx x1 x3 b s) (wts x4) (bias x5) d := by
  rw [val_main_v21_apply, val_main_v18_apply, val_main_v20_apply, val_main_v19_apply, idx_bias]
  refine congrArg (· + (x5 (ix1 d) : EReal)) (Finset.sum_congr rfl fun k _ => ?_)
  rw [lidx_proj, ridx_proj]

/-- The masked, transposed score at (b, s, x). -/
theorem ref_score (b : Fin 32) (s : Fin 128) (x : Fin 1024) :
    (val_main_v28 (F := Ideal) x0 x1 x2 x3 x4 x5 (ix3 b s x) : EReal) = scoreRow x0 x1 x2 x3 x4 x5 b s x := by
  rw [val_main_v28_apply, idx_transpose, val_main_v27_apply, val_main_v22_apply, val_main_v26_apply, idx_mask]
  refine Eq.trans ?_ (Spec.score_comm _ _ _ x)
  refine congrArg (· + (val_main_v25 (F := Ideal) x0 (ix3 b x (0 : Fin 1)) : EReal)) (Finset.sum_congr rfl fun k _ => ?_)
  rw [lidx_score, ridx_score, ref_proj]

/-- The row maximum at (b, s): the fold of `max` over the row from the starting value, the starting value taken once
    more. -/
theorem ref_max (b : Fin 32) (s : Fin 128) :
    (val_main_v31 (F := Ideal) x0 x1 x2 x3 x4 x5 (ix2 b s) : EReal) = Spec.rowMax Spec.ninf (scoreRow x0 x1 x2 x3 x4 x5 b s) := by
  have hfold : (val_main_v29 (F := Ideal) x0 x1 x2 x3 x4 x5 (ix2 b s) : EReal)
      = Spec.rowMax Spec.ninf (scoreRow x0 x1 x2 x3 x4 x5 b s) := by
    unfold val_main_v29
    rw [Host.reduce_eq_fold_single FloatOps.maximumf _ _ reducesTo_S32x128x1024_S32x128_d2 reduces_last h_S_ (ix2 b s),
      val_main_cst_4_apply]
    unfold Spec.rowMax
    show (Finset.univ : Finset (Fin 1024)).fold max Spec.ninf
        (fun k : Fin 1024 => (val_main_v28 (F := Ideal) x0 x1 x2 x3 x4 x5 (reduces_last.lift (ix2 b s) k) : EReal))
      = (Finset.univ : Finset (Fin 1024)).fold max Spec.ninf (scoreRow x0 x1 x2 x3 x4 x5 b s)
    refine Finset.fold_congr fun k _ => ?_
    rw [lift_last, ref_score]
  rw [val_main_v31_apply, val_main_v30_apply, val_main_cst_5_apply, hfold]
  exact Spec.max_rowMax _ _

/-- The exponential at (b, s, x). -/
theorem ref_exp (b : Fin 32) (s : Fin 128) (x : Fin 1024) :
    (val_main_v35 (F := Ideal) x0 x1 x2 x3 x4 x5 (ix3 b s x) : EReal)
      = Ideal.exp (scoreRow x0 x1 x2 x3 x4 x5 b s x - Spec.rowMax Spec.ninf (scoreRow x0 x1 x2 x3 x4 x5 b s)) := by
  rw [val_main_v35_apply, val_main_v34_apply, val_main_v33_apply, val_main_v32_apply, idx_max, ref_score, ref_max]
  rfl

/-- The row sum of the exponentials at (b, s). -/
theorem ref_sum (b : Fin 32) (s : Fin 128) :
    (val_main_v36 (F := Ideal) x0 x1 x2 x3 x4 x5 (ix2 b s) : EReal)
      = ∑ x' : Fin 1024, Ideal.exp (scoreRow x0 x1 x2 x3 x4 x5 b s x' - Spec.rowMax Spec.ninf (scoreRow x0 x1 x2 x3 x4 x5 b s)) := by
  rw [val_main_v36_apply, val_main_cst_6_apply, Ideal.ofBits_def, Ideal.ofBits_zero_f32, zero_add]
  refine Finset.sum_congr rfl fun k _ => ?_
  rw [idx_sumTerm, ref_exp]

theorem ref_attn (b : Fin 32) (s : Fin 128) (x : Fin 1024) :
    (val_main_v39 (F := Ideal) x0 x1 x2 x3 x4 x5 (ix3 b s x) : EReal)
      = Spec.attn Spec.ninf (fun k => (val_main_v17 (F := Ideal) x1 x3 (ix3 b s k) : EReal)) (fun k d => (x4 (ix2 k d) : EReal))
          (fun d => (x5 (ix1 d) : EReal)) (fun x' d => (val_main_v9 (F := Ideal) x0 x2 (ix3 b x' d) : EReal))
          (fun x' => (val_main_v25 (F := Ideal) x0 (ix3 b x' (0 : Fin 1)) : EReal)) x := by
  rw [val_main_v39_apply, val_main_v38_apply, val_main_v37_apply, idx_sum, ref_exp, ref_sum]
  rfl

theorem ref_out (b : Fin 32) (s : Fin 128) (d : Fin 512) :
    (val_main_v40 (F := Ideal) x0 x1 x2 x3 x4 x5 (ix3 b s d) : EReal)
      = Spec.outp Spec.ninf (fun k => (val_main_v17 (F := Ideal) x1 x3 (ix3 b s k) : EReal)) (fun k d' => (x4 (ix2 k d') : EReal))
          (fun d' => (x5 (ix1 d') : EReal)) (fun x' d' => (val_main_v9 (F := Ideal) x0 x2 (ix3 b x' d') : EReal))
          (fun x' => (val_main_v25 (F := Ideal) x0 (ix3 b x' (0 : Fin 1)) : EReal)) d := by
  rw [val_main_v40_apply]
  refine Finset.sum_congr rfl fun k _ => ?_
  rw [lidx_out, ridx_out, ref_attn]

end Cert.AbsEnc.RefRead

end
-- ==== Proof.Bridge.lean ====
/-
  The reference's results are the kernel's.

  The reference's two result terms, read index by index, are the specification's `attn` and `outp` of batch-row slices
  of its own stages; the kernel's result arrays are the same functions of the arrays its region finds. Stage by stage
  those are the same arrays of the arguments: the two gathers are one term once the kernel's change of float format is
  read as the identity, the projection weights are the argument itself, the bias row is the bias re-laid as a 1 × 512
  matrix, and the kernel's selected mask is the reference's product of the 0/1 padding indicator with the constant.
-/
import proofs.«401462_j84353157693655_3_alg».proof.Proof.Blocks
import proofs.«401462_j84353157693655_3_alg».proof.Proof.HostArrays
import proofs.«401462_j84353157693655_3_alg».proof.Proof.RefRead

noncomputable section

namespace Cert.AbsEnc.Bridge

open Idealize.ShloMosaic Idealize.ShloMosaic.TcCoe Idealize.SL.Sem Idealize.ShloMosaic.ValueIdx
open Cert.AbsEnc

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories agree on the six arguments. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

/-- The reference's attention weights are the kernel's. -/
theorem attn_eq (c : Dev Cert.KernelIdeal.nD) (h : Agree m m' c) :
    (Cert.ReferenceIdeal.Value.res_main_v39 m' c : Cert.KernelIdeal.S32x128x1024.Idx → EReal) = Blocks.GA m c := by
  obtain ⟨h0, h1, h2, h3, h4, h5⟩ := h
  rw [Cert.ReferenceIdeal.Read.val_main_v39_eq, h0, h1, h2, h3, h4, h5]
  funext i
  obtain ⟨b, s, x, rfl⟩ : ∃ (b : Fin 32) (s : Fin 128) (x : Fin 1024), i = ix3 b s x := ⟨i 0, i 1, i 2, eq_ix3 i⟩
  refine (RefRead.ref_attn _ _ _ _ _ _ b s x).trans ?_
  unfold Blocks.GA
  refine Blocks.attn_congr ?_ ?_ ?_ ?_ ?_ x
  · funext k; exact (congrFun (HostArrays.yce_eq m c) _).symm
  · funext k d; exact (congrFun (HostArrays.pw_eq m c) _).symm
  · funext d; exact (HostArrays.pb_apply m c d).symm
  · funext x' d; exact (congrFun (HostArrays.xe_eq m c) _).symm
  · funext x'; exact (HostArrays.mb_apply m c b x').symm

/-- The reference's read-out is the kernel's. -/
theorem out_eq (c : Dev Cert.KernelIdeal.nD) (h : Agree m m' c) :
    (Cert.ReferenceIdeal.Value.res_main_v40 m' c : Cert.KernelIdeal.S32x128x512.Idx → EReal) = Blocks.GO m c := by
  obtain ⟨h0, h1, h2, h3, h4, h5⟩ := h
  rw [Cert.ReferenceIdeal.Read.val_main_v40_eq, h0, h1, h2, h3, h4, h5]
  funext i
  obtain ⟨b, s, d, rfl⟩ : ∃ (b : Fin 32) (s : Fin 128) (d : Fin 512), i = ix3 b s d := ⟨i 0, i 1, i 2, eq_ix3 i⟩
  refine (RefRead.ref_out _ _ _ _ _ _ b s d).trans ?_
  unfold Blocks.GO
  refine Blocks.outp_congr ?_ ?_ ?_ ?_ ?_ d
  · funext k; exact (congrFun (HostArrays.yce_eq m c) _).symm
  · funext k d'; exact (congrFun (HostArrays.pw_eq m c) _).symm
  · funext d'; exact (HostArrays.pb_apply m c d').symm
  · funext x' d'; exact (congrFun (HostArrays.xe_eq m c) _).symm
  · funext x'; exact (HostArrays.mb_apply m c b x').symm

end Cert.AbsEnc.Bridge

end
-- ==== Proof.lean ====
/-
  A fused attention encoder against its jnp reference, equal over the extended reals.

  Both programs gather source embeddings `xe = F[x]` (32 × 1024 × 512) and context embeddings `yce = G[yc]` re-laid
  as 32 × 128 × 2560, project `py = yce · P_w + P_b`, score `a_t[b,s,x] = ∑_d py[b,s,d] · xe[b,x,d] + mask[b,x]` with
  the mask −1e9 where the source token is 0 and 0 elsewhere, take the softmax over `x` as
  `exp (a_t − max) / ∑ exp (a_t − max)`, and read out `out[b,s,d] = ∑_x a[b,s,x] · xe[b,x,d]`. The kernel does this
  four batch rows per grid point on bf16 copies of the tables; at the ideal values a change of float format is the
  identity, a matrix unit's product into a zero accumulator is the plain sum of products, and the lane reductions are
  the plain maximum and sum, so each grid point computes the reference's own formula on its four batch rows. The only
  rearrangements between the two texts are the order of the factors in the score's products (commutativity), one more
  `max` with −∞ in the reference (absorbed by the maximum), the reference's sum started from 0, and the mask written as
  a selection in the kernel and as the padding indicator times −1e9 in the reference (equal case by case on the
  indicator bit: 1 · c = c and 0 · c = 0). None of these needs the inputs finite.

  Spec.lean states one batch row's formulas; KernelPay.lean reads the kernel body's two stored values at an index as
  those formulas of the loaded blocks; Blocks.lean goes from the eight grid points' blocks to the whole result arrays
  as functions of the arrays the region finds; HostArrays.lean reads those arrays as functions of the arguments;
  RefRead.lean reads the reference's two results at an index as the same formulas of its own stages; Bridge.lean joins
  the two. The three frames are the generated ones (the reference's is its generated run with the results dropped);
  the idealization rewrote nothing, so `preserves` is trivial.
-/
import proofs.«401462_j84353157693655_3_alg».proof.Defs
import proofs.«401462_j84353157693655_3_alg».proof.Proof.Gen.Kernel
import proofs.«401462_j84353157693655_3_alg».proof.Proof.Gen.Kernel.Skeleton
import proofs.«401462_j84353157693655_3_alg».proof.Proof.Gen.Kernel.Launch
import proofs.«401462_j84353157693655_3_alg».proof.Proof.Gen.Kernel.Points
import proofs.«401462_j84353157693655_3_alg».proof.Proof.Gen.Kernel.Frame
import proofs.«401462_j84353157693655_3_alg».proof.Proof.Gen.KernelIdeal
import proofs.«401462_j84353157693655_3_alg».proof.Proof.Gen.KernelIdeal.Skeleton
import proofs.«401462_j84353157693655_3_alg».proof.Proof.Gen.KernelIdeal.Launch
import proofs.«401462_j84353157693655_3_alg».proof.Proof.Gen.KernelIdeal.Points
import proofs.«401462_j84353157693655_3_alg».proof.Proof.Gen.KernelIdeal.Frame
import proofs.«401462_j84353157693655_3_alg».proof.Proof.Gen.ReferenceIdeal
import proofs.«401462_j84353157693655_3_alg».proof.Proof.Gen.Pre_finite_inputs
import proofs.«401462_j84353157693655_3_alg».proof.Proof.Gen.KernelIdeal.Value
import proofs.«401462_j84353157693655_3_alg».proof.Proof.Gen.ReferenceIdeal.Run
import proofs.«401462_j84353157693655_3_alg».proof.Proof.Gen.ReferenceIdeal.Read
import proofs.«401462_j84353157693655_3_alg».proof.Proof.Blocks
import proofs.«401462_j84353157693655_3_alg».proof.Proof.Bridge
import Idealize.ShloMosaic.Adequacy
import Idealize.ShloMosaic.Init

noncomputable section

namespace Cert.Proof

open Idealize.ShloMosaic Idealize.SL.Sem
open Cert.AbsEnc

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run, with what it says of the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments, the kernel's two result arrays end at `GO` and `GA` of the arrays its
    region finds, and the reference's two results are the same functions of the same arguments. -/
theorem algebraic : Cert.algebraic_KernelIdeal_ReferenceIdeal := by
  intro m ρ m' ρ' _ hagree
  refine ⟨fun c => Blocks.GO m c, fun c => Blocks.GA m c, Blocks.run m ρ, ?_⟩
  exact (θ_run Cert.ReferenceIdeal.defs _ _).mono
    (fun _ h c => ⟨(h c).1.trans (Bridge.out_eq m m' c (hagree c)), (h c).2.1.trans (Bridge.attn_eq m m' c (hagree c)), (h c).2.2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
